-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x128 .f32) (main_arg1 : IVec S1600000 32) (main_arg2 : IVec S1600000 32) (main_arg3 : FVec F S1600000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_c_2 : IVec S_ 32 := constantI S_ 32 0#32
  let main_v9 : IVec S1600000 32 := broadcastInDim S1600000 ![] bcast_S_S1600000 main_c_2
  let main_v10 : IVec S1600000 1 := cmpi .sge main_arg2 main_v9
  let main_c_3 : IVec S_ 32 := constantI S_ 32 100000#32
  let main_v11 : IVec S1600000 32 := broadcastInDim S1600000 ![] bcast_S_S1600000 main_c_3
  let main_v12 : IVec S1600000 1 := cmpi .slt main_arg2 main_v11
  let main_v13 : IVec S1600000 1 := andi main_v10 main_v12
  let main_c_4 : IVec S_ 1 := constantI S_ 1 1#1
  let main_v14 : IVec S_ 1 := (fun x v => Host.reduce IntOp.andi x v reducesTo_S1600000_S_d0 h_S_) main_v13 main_c_4
  let main_v15 : IVec S_ 1 := andi main_v8 main_v14
  main_v15
-- ==== Kernel.lean ====
abbrev S100000x128 : Shape := ⟨2, ![100000, 128]⟩
abbrev S1600000 : Shape := ⟨1, ![1600000]⟩
abbrev S_ : Shape := ⟨0, ![]⟩
abbrev S1601536 : Shape := ⟨1, ![1601536]⟩
abbrev S100352x128 : Shape := ⟨2, ![100352, 128]⟩
abbrev S1601536x1 : Shape := ⟨2, ![1601536, 1]⟩
abbrev S2x1x1 : Shape := ⟨3, ![2, 1, 1]⟩
abbrev S2048x1 : Shape := ⟨2, ![2048, 1]⟩
abbrev S2048x128 : Shape := ⟨2, ![2048, 128]⟩
abbrev S1x1x1 : Shape := ⟨3, ![1, 1, 1]⟩
abbrev S1x2048 : Shape := ⟨2, ![1, 2048]⟩
abbrev S2048x2048 : Shape := ⟨2, ![2048, 2048]⟩
abbrev S2048 : Shape := ⟨1, ![2048]⟩
abbrev S1 : Shape := ⟨1, ![1]⟩
abbrev S1x1 : Shape := ⟨2, ![1, 1]⟩

abbrev nBuf : Space → Nat
  | .hbm => 25
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S_, .i32⟩
  | .hbm, ⟨5, _⟩ => ⟨S_, .i32⟩
  | .hbm, ⟨6, _⟩ => ⟨S1601536, .i32⟩
  | .hbm, ⟨7, _⟩ => ⟨S_, .i32⟩
  | .hbm, ⟨8, _⟩ => ⟨S_, .i32⟩
  | .hbm, ⟨9, _⟩ => ⟨S1601536, .i32⟩
  | .hbm, ⟨10, _⟩ => ⟨S_, .i32⟩
  | .hbm, ⟨11, _⟩ => ⟨S_, .f32⟩
  | .hbm, ⟨12, _⟩ => ⟨S1601536, .f32⟩
  | .hbm, ⟨13, _⟩ => ⟨S_, .i32⟩
  | .hbm, ⟨14, _⟩ => ⟨S_, .f32⟩
  | .hbm, ⟨15, _⟩ => ⟨S100352x128, .f32⟩
  | .hbm, ⟨16, _⟩ => ⟨S100352x128, .bf16⟩
  | .hbm, ⟨17, _⟩ => ⟨S1601536x1, .i32⟩
  | .hbm, ⟨18, _⟩ => ⟨S1601536x1, .i32⟩
  | .hbm, ⟨19, _⟩ => ⟨S1601536x1, .f32⟩
  | .hbm, ⟨20, _⟩ => ⟨S2x1x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S2048x1, .i32⟩
  | .local _ .vmem, ⟨1, _⟩ => ⟨S2048x1, .i32⟩
  | .local _ .vmem, ⟨2, _⟩ => ⟨S2048x1, .i32⟩
  | .local _ .vmem, ⟨3, _⟩ => ⟨S2048x1, .i32⟩
  | .local _ .vmem, ⟨4, _⟩ => ⟨S2048x1, .f32⟩
  | .local _ .vmem, ⟨5, _⟩ => ⟨S2048x1, .f32⟩
  | .local _ .vmem, ⟨6, _⟩ => ⟨S2048x128, .bf16⟩
  | .local _ .vmem, ⟨7, _⟩ => ⟨S2048x128, .bf16⟩
  | .local _ .vmem, ⟨8, _⟩ => ⟨S1x1x1, .f32⟩
  | .local _ .vmem, ⟨9, _⟩ => ⟨S1x1x1, .f32⟩
  | .local _ .vmem, ⟨10, _⟩ => ⟨S2048x128, .f32⟩
  | .local _ .vmem, ⟨11, _⟩ => ⟨S2048x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_call3_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 391, 49], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg2 : BitVec 32 := BitVec.ofNat 32 (i 2).val
  let c48_i32 : BitVec 32 := 48#32
  let v42 : BitVec 1 := Scalar.cmpi .eq arg2 c48_i32
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c391_i32 : BitVec 32 := 391#32
  let v0 : BitVec 32 := Scalar.muli arg0 c391_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c391_i32 : BitVec 32 := 391#32
  let v0 : BitVec 32 := Scalar.muli arg0 c391_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c391_i32 : BitVec 32 := 391#32
  let v0 : BitVec 32 := Scalar.muli arg0 c391_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  pads_S1600000_S1601536_015360 : S1600000.Pads (![0] : Fin 1 → Nat) ![1536] ![0] S1601536
  h_S_ : 0 < S_.numel
  pads_S100000x128_S100352x128_03520_000 : S100000x128.Pads (![0, 0] : Fin 2 → Nat) ![352, 0] ![0, 0] S100352x128
  bitsLt_bf16_f32 : FTy.bits .bf16 < FTy.bits .f32
  shapeCasts_S1601536_S1601536x1 : S1601536.ShapeCasts S1601536x1
  inb_S1x1x1_S1x1x1_0_0_0 : ∀ a, (![0, 0, 0] : Fin 3 → Nat) a + S1x1x1.size a ≤ S1x1x1.size a
  h_S1x1x1 : 0 < S1x1x1.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S1x2048_d1_w32 : S1x2048.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x2048 : S2048x1.Broadcasts S2048x2048
  broadcasts_S1x2048_S2048x2048 : S1x2048.Broadcasts S2048x2048
  natLt_1_32 : 1 < 32
  reduces_S2048x128_S2048 : S2048x128.Reduces [1] S2048
  shapeCasts_S2048_S2048x1 : S2048.ShapeCasts S2048x1
  reduces_S2048x1_S1 : S2048x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  dot_S2048x2048_S2048x128_S2048x128_1_0_0_1_n_n_wf : DotDims.WF S2048x2048 S2048x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S1601536x1.size a
  hwx0_0 : ∀ i : grid0.Coords, EltTy.bits .i32 = 32 ∨ (Rect.block (s := S1601536x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S1601536x1.size a
  hwx0_1 : ∀ i : grid0.Coords, EltTy.bits .i32 = 32 ∨ (Rect.block (s := S1601536x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S1601536x1.size a
  hwx0_2 : ∀ i : grid0.Coords, EltTy.bits .f32 = 32 ∨ (Rect.block (s := S1601536x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S100352x128.size a
  hwx0_3 : ∀ i : grid0.Coords, EltTy.bits .bf16 = 32 ∨ (Rect.block (s := S100352x128) S2048x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf

abbrev win0_0 : Pipeline.Window sig grid0 :=
  Pipeline.Window.ofSpec (Memref.whole main_v5) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond3 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S1600000 : Shape := ⟨1, ![1600000]⟩
abbrev S1600000x1 : Shape := ⟨2, ![1600000, 1]⟩
abbrev S_ : Shape := ⟨0, ![]⟩
abbrev S1600000x128 : Shape := ⟨2, ![1600000, 128]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S1600000x1, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S1600000x128, .f32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S100000x128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  reducesTo_S100000x128_S_d0_1 : S100000x128.ReducesTo [0, 1] S_
  h_S_ : 0 < S_.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KB.Conds.lean ====
/-
  The grid of the kernel, point by point: which of the body's three conditionals holds where, where the output
  window's buffer is left alone, and the names of the buffers the body is called with.

  The grid is `2 × 391 × 49`, walked in row-major order, so point `t` has node chunk `j = t mod 49`, edge block
  `(t / 49) mod 391`, and is the first point of a core exactly when `t mod 19159 = 0` (`19159 = 391 · 49`).
-/
import proofs.«419940_j22909355557427_1_alg».proof.Proof.KB.FrameP
import proofs.«419940_j22909355557427_1_alg».proof.Proof.Gen.Kernel.Skeleton

set_option maxRecDepth 16384

noncomputable section

namespace Cert.Kernel.Body

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The coordinates of a point -/

theorem stride2 : grid0.stride 2 = 1 := by decide
theorem stride1 : grid0.stride 1 = 49 := by decide
theorem stride0 : grid0.stride 0 = 19159 := by decide

/-- The node chunk of point `t`. -/
theorem coords2 (t : Fin grid0.N) : (grid0.coords t 2).val = t.val % 49 := by
  show t.val / grid0.stride 2 % 49 = _
  rw [stride2, Nat.div_one]
/-- The edge block, within its core, of point `t`. -/
theorem coords1 (t : Fin grid0.N) : (grid0.coords t 1).val = t.val / 49 % 391 := by
  show t.val / grid0.stride 1 % 391 = _
  rw [stride1]
/-- The core of point `t`. -/
theorem coords0 (t : Fin grid0.N) : (grid0.coords t 0).val = t.val / 19159 % 2 := by
  show t.val / grid0.stride 0 % 2 = _
  rw [stride0]

/-! ## The conditionals -/

theorem eq0_391 : ∀ a : Fin 391, Scalar.cmpi .eq (BitVec.ofNat 32 a.val) 0#32 = 1#1 ↔ a.val = 0 := by decide
theorem eq0_49 : ∀ a : Fin 49, Scalar.cmpi .eq (BitVec.ofNat 32 a.val) 0#32 = 1#1 ↔ a.val = 0 := by decide
theorem eq48_49 : ∀ a : Fin 49, Scalar.cmpi .eq (BitVec.ofNat 32 a.val) 48#32 = 1#1 ↔ a.val = 48 := by decide
theorem ne0_ext : ∀ u : BitVec 1, Scalar.cmpi .ne (Scalar.extui u : BitVec 32) 0#32 = 1#1 ↔ u = 1#1 := by decide
theorem and1 : ∀ u v : BitVec 1, Scalar.andi u v = 1#1 ↔ u = 1#1 ∧ v = 1#1 := by decide

/-- The body clears the output cell: first edge block and first node chunk of a core. -/
abbrev condOut (i : grid0.Coords) : Prop := k0_cond1 i = 1#1
/-- The body clears the accumulators: first node chunk. -/
abbrev condAcc (i : grid0.Coords) : Prop := (Scalar.cmpi .ne (Scalar.extui (Scalar.cmpi .eq (BitVec.ofNat 32 (i 2).val) 0#32)) 0#32) = 1#1
/-- The body adds the block's sum to the output cell: last node chunk. -/
abbrev condSum (i : grid0.Coords) : Prop := k0_cond3 i = 1#1

theorem condSum_iff (i : grid0.Coords) : condSum i ↔ (i 2).val = 48 := by
  unfold condSum k0_cond3
  dsimp only
  rw [ne0_ext]
  exact eq48_49 (i 2)

theorem condOut_iff (i : grid0.Coords) : condOut i ↔ (i 1).val = 0 ∧ (i 2).val = 0 := by
  unfold condOut k0_cond1
  dsimp only
  rw [ne0_ext, and1]
  exact and_congr (eq0_391 (i 1)) (eq0_49 (i 2))

theorem condAcc_iff (i : grid0.Coords) : condAcc i ↔ (i 2).val = 0 := by
  unfold condAcc
  rw [ne0_ext]
  exact eq0_49 (i 2)

/-- The output cell is cleared at the first point of each core. -/
theorem hcondOut (t : Fin cfg0.N) : condOut (grid0.coords t) ↔ t.val % 19159 = 0 := by
  rw [condOut_iff, coords1, coords2]; omega
/-- The accumulators are cleared at the first node chunk of each edge block. -/
theorem hcondAcc (t : Fin cfg0.N) : condAcc (grid0.coords t) ↔ t.val % 49 = 0 := by
  rw [condAcc_iff, coords2]
/-- The block's sum is added at the last node chunk of each edge block. -/
theorem hcondSum (t : Fin cfg0.N) : condSum (grid0.coords t) ↔ t.val % 49 = 48 := by
  rw [condSum_iff, coords2]

/-- The input windows are never idle. -/
theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl
/-- The output window's buffer is left alone exactly where the body neither clears the cell nor adds to it. -/
theorem idle4 (t : Fin cfg0.N) : cfg0.idle 4 (grid0.coords t) = true ↔ (t.val % 19159 ≠ 0 ∧ t.val % 49 ≠ 48) := by
  show (!(k0_cond1 (grid0.coords t) == 1#1) && !(k0_cond3 (grid0.coords t) == 1#1)) = true ↔ _
  rw [Bool.and_eq_true, Bool.not_eq_true', Bool.not_eq_true', beq_eq_false_iff_ne, beq_eq_false_iff_ne]
  exact and_congr (not_congr (hcondOut t)) (not_congr (hcondSum t))

/-- Each window's current staging buffer at point `t`, as the pipeline passes it to the body, and that it is a whole buffer. -/
abbrev ms0 (t : Fin cfg0.N) : Memref sig .tc .vmem S2048x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1 .f32 := win0_4.stage (cfg0.slots t 4)
abbrev hs4 (t : Fin cfg0.N) : (ms4 t).IsWhole := hstage0_4 ((cfg0.slots t 4).cast nbuf0_4)
/-- The two accumulators: whole buffers of the kernel's own. -/
abbrev scR : Memref sig .tc .vmem S2048x128 .f32 := Memref.whole cc0_scratch0
abbrev scC : Memref sig .tc .vmem S2048x128 .f32 := Memref.whole cc0_scratch1

/-- What the region's launch hands the body besides the windows: the two accumulators at some contents, and the
    generator register. -/
theorem PhiA_eq (c : Dev nD) :
    (Pipeline.ΦA spec0 c : sProp 𝕄)
      = iprop(iprop((∃ d, owns (c : Thread nD τ) scR fullShare d) ∗ (∃ d, owns (c : Thread nD τ) scC fullShare d)) ∗ (∃ r, prngReg c r)) := by
  unfold Pipeline.ΦA; rw [scopedRest0_eq]; simp only [scR, scC, owns_whole]; try rfl

end Cert.Kernel.Body

end
-- ==== Proof.KB.Runs.lean ====
/-
  The kernel body run once, in each of the four ways its three conditionals can go on the grid.

  The body is a function of the grid point `(c, i, j)`: the core, the edge block and the node chunk. It clears
  the output cell at the first point of a core (`i = 0`, `j = 0`), clears the two accumulators at the first
  chunk of an edge block (`j = 0`), adds to each accumulator the product of the endpoints' one-hot matrix with the
  chunk of node features, and at the last chunk (`j = 48`) adds the block's weighted sum of row inner products to
  the output cell. Each run below says what the three buffers the body writes hold afterwards, as the body's own
  stored values (`k0_payN`) of what the buffers held before.
-/
import proofs.«419940_j22909355557427_1_alg».proof.Proof.KB.Conds
import Idealize.ShloMosaic.Lib.Pipeline.Value

set_option maxRecDepth 16384

noncomputable section

namespace Cert.Kernel.Body

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store through the whole block at zero offsets, made last, is what the buffer reads afterwards, whatever was
    stored before it. -/
private theorem read_writes_unit_zero {sg : RefSig} {κ : Kind} {sp : Space} {S : Shape} {e : EltTy} {Val : EltTy → Type}
    [∀ e, Nonempty (Val e)] (v : View sg κ sp S e) (f : v.ty.Contents Val) {off : Fin S.rank → Nat}
    (hz : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero hz inb y⟩),
    View.canon_cons_unit_zero hz]

/-- The zero offsets of a block of rank two, and of rank three. -/
private theorem zeros2 : (![0, 0] : Fin 2 → Nat) = fun _ => 0 := by funext a; fin_cases a <;> rfl
private theorem zeros3 : (![0, 0, 0] : Fin 3 → Nat) = fun _ => 0 := by funext a; fin_cases a <;> rfl

/-- The row accumulator after the body, from what it held when the product was added. -/
abbrev accR (i : grid0.Coords) (x0 : Vec F S2048x1 .i32) (x3 : Vec F S2048x128 .bf16) (s : Vec F S2048x128 .f32) : Vec F S2048x128 .f32 :=
  k0_pay8 i x0 x3 s
/-- The column accumulator after the body, from what it held when the product was added. -/
abbrev accC (i : grid0.Coords) (x1 : Vec F S2048x1 .i32) (x3 : Vec F S2048x128 .bf16) (s : Vec F S2048x128 .f32) : Vec F S2048x128 .f32 :=
  k0_pay1 (k0_pay7 x3) (k0_pay9 i x1) s

/-- First point of a core: the output cell and both accumulators are cleared, then the accumulators take the
    chunk's products. -/
theorem run_first (c : Dev nD) (i : grid0.Coords) (arg3 : Memref sig .tc .vmem S2048x1 .i32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x128 .bf16) (harg6 : arg6.IsWhole) (arg7 : Memref sig .tc .vmem S1x1x1 .f32) (harg7 : arg7.IsWhole) (arg8 : Memref sig .tc .vmem S2048x128 .f32) (harg8 : arg8.IsWhole) (arg9 : Memref sig .tc .vmem S2048x128 .f32) (harg9 : arg9.IsWhole)
    (hc0 : condOut i) (hc1 : condAcc i) (hc2 : ¬condSum i)
    (x0 : Vec F S2048x1 .i32) (x1 : Vec F S2048x1 .i32) (x2 : Vec F S2048x1 .f32) (x3 : Vec F S2048x128 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay3 (F := F)) ∗ owns (c : Thread nD τ) arg8 fullShare (accR i x0 x3 (k0_pay4 (F := F))) ∗ owns (c : Thread nD τ) arg9 fullShare (accC i x1 x3 (k0_pay5 (F := F)))) -∗ K ⟨⟩))
      ⊢ wp frame (wpE (defs₀ (F := F)) Variants.none c none) E (cc0__kernel i arg3 harg3 arg4 harg4 arg5 harg5 arg6 harg6 arg7 harg7 arg8 harg8 arg9 harg9) K := by
  simp only [cc0__kernel_eq_skeleton]; unfold cc0__kernel_skel; simp only [k0_part1_eq_skeleton]
  unfold owns
  iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hk⟩
  obtain rfl := harg3.eq_unread hf0; obtain rfl := harg4.eq_unread hf1; obtain rfl := harg5.eq_unread hf2; obtain rfl := harg6.eq_unread hf3
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; swap; · iexact H7
    ipureintro
    sl_unfold_words
    exact read_writes_unit_zero _ _ zeros3 _ _ _
  isplitl [H8]
  · iexists _; isplitr; swap; · iexact H8
    ipureintro
    sl_unfold_words
    refine (read_writes_unit_zero _ _ zeros2 _ _ _).trans ?_
    simp only [View.readAt_eq_ld, harg3.read_unread, harg4.read_unread, harg5.read_unread, harg6.read_unread, harg7.read_unread, harg8.read_unread, harg9.read_unread, View.ld_unit_zero (S := S2048x1) zeros2, View.ld_unit_zero (S := S2048x128) zeros2, View.ld_unit_zero (S := S1x1x1) zeros3, View.readCov_unit_zero (S := S2048x128) _ zeros2, View.readCov_unit_zero (S := S1x1x1) _ zeros3]
  · iexists _; isplitr; swap; · iexact H9
    ipureintro
    sl_unfold_words
    refine (read_writes_unit_zero _ _ zeros2 _ _ _).trans ?_
    simp only [View.readAt_eq_ld, harg3.read_unread, harg4.read_unread, harg5.read_unread, harg6.read_unread, harg7.read_unread, harg8.read_unread, harg9.read_unread, View.ld_unit_zero (S := S2048x1) zeros2, View.ld_unit_zero (S := S2048x128) zeros2, View.ld_unit_zero (S := S1x1x1) zeros3, View.readCov_unit_zero (S := S2048x128) _ zeros2, View.readCov_unit_zero (S := S1x1x1) _ zeros3]

/-- First node chunk of a later edge block: the accumulators are cleared and take the chunk's products; the
    output cell is not touched. -/
theorem run_reset (c : Dev nD) (i : grid0.Coords) (arg3 : Memref sig .tc .vmem S2048x1 .i32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x128 .bf16) (harg6 : arg6.IsWhole) (arg7 : Memref sig .tc .vmem S1x1x1 .f32) (harg7 : arg7.IsWhole) (arg8 : Memref sig .tc .vmem S2048x128 .f32) (harg8 : arg8.IsWhole) (arg9 : Memref sig .tc .vmem S2048x128 .f32) (harg9 : arg9.IsWhole)
    (hc0 : ¬condOut i) (hc1 : condAcc i) (hc2 : ¬condSum i)
    (x0 : Vec F S2048x1 .i32) (x1 : Vec F S2048x1 .i32) (x2 : Vec F S2048x1 .f32) (x3 : Vec F S2048x128 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare (accR i x0 x3 (k0_pay4 (F := F))) ∗ owns (c : Thread nD τ) arg9 fullShare (accC i x1 x3 (k0_pay5 (F := F)))) -∗ K ⟨⟩))
      ⊢ wp frame (wpE (defs₀ (F := F)) Variants.none c none) E (cc0__kernel i arg3 harg3 arg4 harg4 arg5 harg5 arg6 harg6 arg7 harg7 arg8 harg8 arg9 harg9) K := by
  simp only [cc0__kernel_eq_skeleton]; unfold cc0__kernel_skel; simp only [k0_part1_eq_skeleton]
  unfold owns
  iintro ⟨⟨%f0, %hf0, H0⟩, ⟨%f1, %hf1, H1⟩, ⟨%f2, %hf2, H2⟩, ⟨%f3, %hf3, H3⟩, ⟨%d8, %f8, -, H8⟩, ⟨%d9, %f9, -, H9⟩, Hk⟩
  obtain rfl := harg3.eq_unread hf0; obtain rfl := harg4.eq_unread hf1; obtain rfl := harg5.eq_unread hf2; obtain rfl := harg6.eq_unread hf3
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H8]
  · iexists _; isplitr; swap; · iexact H8
    ipureintro
    sl_unfold_words
    refine (read_writes_unit_zero _ _ zeros2 _ _ _).trans ?_
    simp only [View.readAt_eq_ld, harg3.read_unread, harg4.read_unread, harg5.read_unread, harg6.read_unread, harg7.read_unread, harg8.read_unread, harg9.read_unread, View.ld_unit_zero (S := S2048x1) zeros2, View.ld_unit_zero (S := S2048x128) zeros2, View.ld_unit_zero (S := S1x1x1) zeros3, View.readCov_unit_zero (S := S2048x128) _ zeros2, View.readCov_unit_zero (S := S1x1x1) _ zeros3]
  · iexists _; isplitr; swap; · iexact H9
    ipureintro
    sl_unfold_words
    refine (read_writes_unit_zero _ _ zeros2 _ _ _).trans ?_
    simp only [View.readAt_eq_ld, harg3.read_unread, harg4.read_unread, harg5.read_unread, harg6.read_unread, harg7.read_unread, harg8.read_unread, harg9.read_unread, View.ld_unit_zero (S := S2048x1) zeros2, View.ld_unit_zero (S := S2048x128) zeros2, View.ld_unit_zero (S := S1x1x1) zeros3, View.readCov_unit_zero (S := S2048x128) _ zeros2, View.readCov_unit_zero (S := S1x1x1) _ zeros3]

/-- A middle node chunk: the accumulators take the chunk's products over what they held; the output cell is not
    touched. -/
theorem run_mid (c : Dev nD) (i : grid0.Coords) (arg3 : Memref sig .tc .vmem S2048x1 .i32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x128 .bf16) (harg6 : arg6.IsWhole) (arg7 : Memref sig .tc .vmem S1x1x1 .f32) (harg7 : arg7.IsWhole) (arg8 : Memref sig .tc .vmem S2048x128 .f32) (harg8 : arg8.IsWhole) (arg9 : Memref sig .tc .vmem S2048x128 .f32) (harg9 : arg9.IsWhole)
    (hc0 : ¬condOut i) (hc1 : ¬condAcc i) (hc2 : ¬condSum i)
    (x0 : Vec F S2048x1 .i32) (x1 : Vec F S2048x1 .i32) (x2 : Vec F S2048x1 .f32) (x3 : Vec F S2048x128 .bf16)
    (xs0 : Vec F S2048x128 .f32) (xs1 : Vec F S2048x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare (accR i x0 x3 xs0) ∗ owns (c : Thread nD τ) arg9 fullShare (accC i x1 x3 xs1)) -∗ K ⟨⟩))
      ⊢ wp frame (wpE (defs₀ (F := F)) Variants.none c none) E (cc0__kernel i arg3 harg3 arg4 harg4 arg5 harg5 arg6 harg6 arg7 harg7 arg8 harg8 arg9 harg9) K := by
  simp only [cc0__kernel_eq_skeleton]; unfold cc0__kernel_skel; simp only [k0_part1_eq_skeleton]
  unfold owns
  iintro ⟨⟨%f0, %hf0, H0⟩, ⟨%f1, %hf1, H1⟩, ⟨%f2, %hf2, H2⟩, ⟨%f3, %hf3, H3⟩, ⟨%f8, %hf8, H8⟩, ⟨%f9, %hf9, H9⟩, Hk⟩
  obtain rfl := harg3.eq_unread hf0; obtain rfl := harg4.eq_unread hf1; obtain rfl := harg5.eq_unread hf2; obtain rfl := harg6.eq_unread hf3
  obtain rfl := harg8.eq_unread hf8; obtain rfl := harg9.eq_unread hf9
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H8]
  · iexists _; isplitr; swap; · iexact H8
    ipureintro
    refine (read_writes_unit_zero _ _ zeros2 _ _ _).trans ?_
    simp only [View.readAt_eq_ld, harg3.read_unread, harg6.read_unread, harg8.read_unread, View.ld_unit_zero (S := S2048x1) zeros2, View.ld_unit_zero (S := S2048x128) zeros2]
  · iexists _; isplitr; swap; · iexact H9
    ipureintro
    sl_unfold_words
    refine (read_writes_unit_zero _ _ zeros2 _ _ _).trans ?_
    simp only [View.readAt_eq_ld, harg4.read_unread, harg6.read_unread, harg9.read_unread, View.ld_unit_zero (S := S2048x1) zeros2, View.ld_unit_zero (S := S2048x128) zeros2]

/-- The last node chunk: the accumulators take the chunk's products, and the output cell takes, over what it
    held, the block's weighted sum of the accumulators' row inner products. -/
theorem run_last (c : Dev nD) (i : grid0.Coords) (arg3 : Memref sig .tc .vmem S2048x1 .i32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x128 .bf16) (harg6 : arg6.IsWhole) (arg7 : Memref sig .tc .vmem S1x1x1 .f32) (harg7 : arg7.IsWhole) (arg8 : Memref sig .tc .vmem S2048x128 .f32) (harg8 : arg8.IsWhole) (arg9 : Memref sig .tc .vmem S2048x128 .f32) (harg9 : arg9.IsWhole)
    (hc0 : ¬condOut i) (hc1 : ¬condAcc i) (hc2 : condSum i)
    (x0 : Vec F S2048x1 .i32) (x1 : Vec F S2048x1 .i32) (x2 : Vec F S2048x1 .f32) (x3 : Vec F S2048x128 .bf16)
    (xs0 : Vec F S2048x128 .f32) (xs1 : Vec F S2048x128 .f32) (o : Vec F S1x1x1 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay2 x2 (accR i x0 x3 xs0) (accC i x1 x3 xs1) o) ∗ owns (c : Thread nD τ) arg8 fullShare (accR i x0 x3 xs0) ∗ owns (c : Thread nD τ) arg9 fullShare (accC i x1 x3 xs1)) -∗ K ⟨⟩))
      ⊢ wp frame (wpE (defs₀ (F := F)) Variants.none c none) E (cc0__kernel i arg3 harg3 arg4 harg4 arg5 harg5 arg6 harg6 arg7 harg7 arg8 harg8 arg9 harg9) K := by
  simp only [cc0__kernel_eq_skeleton]; unfold cc0__kernel_skel; simp only [k0_part1_eq_skeleton]
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2; obtain rfl := harg6.eq_unread hf3
  obtain rfl := harg7.eq_unread hf7; obtain rfl := harg8.eq_unread hf8; obtain rfl := harg9.eq_unread hf9
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; swap; · iexact H7
    ipureintro
    sl_unfold_words
    refine (read_writes_unit_zero _ _ zeros3 _ _ _).trans ?_
    simp only [View.readAt_eq_ld, harg3.read_unread, harg4.read_unread, harg5.read_unread, harg6.read_unread, harg7.read_unread, harg8.read_unread, harg9.read_unread, View.ld_unit_zero (S := S2048x1) zeros2, View.ld_unit_zero (S := S2048x128) zeros2, View.ld_unit_zero (S := S1x1x1) zeros3, View.readCov_unit_zero (S := S2048x128) _ zeros2, View.readCov_unit_zero (S := S1x1x1) _ zeros3]
  isplitl [H8]
  · iexists _; isplitr; swap; · iexact H8
    ipureintro
    sl_unfold_words
    refine (read_writes_unit_zero _ _ zeros2 _ _ _).trans ?_
    simp only [View.readAt_eq_ld, harg3.read_unread, harg4.read_unread, harg5.read_unread, harg6.read_unread, harg7.read_unread, harg8.read_unread, harg9.read_unread, View.ld_unit_zero (S := S2048x1) zeros2, View.ld_unit_zero (S := S2048x128) zeros2, View.ld_unit_zero (S := S1x1x1) zeros3, View.readCov_unit_zero (S := S2048x128) _ zeros2, View.readCov_unit_zero (S := S1x1x1) _ zeros3]
  · iexists _; isplitr; swap; · iexact H9
    ipureintro
    sl_unfold_words
    refine (read_writes_unit_zero _ _ zeros2 _ _ _).trans ?_
    simp only [View.readAt_eq_ld, harg3.read_unread, harg4.read_unread, harg5.read_unread, harg6.read_unread, harg7.read_unread, harg8.read_unread, harg9.read_unread, View.ld_unit_zero (S := S2048x1) zeros2, View.ld_unit_zero (S := S2048x128) zeros2, View.ld_unit_zero (S := S1x1x1) zeros3, View.readCov_unit_zero (S := S2048x128) _ zeros2, View.readCov_unit_zero (S := S1x1x1) _ zeros3]

end Cert.Kernel.Body

end
-- ==== Proof.KB.Frame.lean ====
/-
  The frame of the kernel's program, with the output array's contents named.

  What the three buffers the body writes hold after each grid point is a recursion on the point (`stAt`): the two
  accumulators restart at the first node chunk of an edge block and otherwise grow by the chunk's products; the
  output cell restarts at a core's first point, grows by the block's sum at an edge block's last chunk, and is
  otherwise left as found. The output window's staging buffer is written back only after a core's last point, so
  between a core's first point and its last the buffer holds what the point before left in it, through the points
  that leave it alone (`before4`). With that the body's four runs give the body obligation at every point, and
  the library's launch theorem gives the run of the whole program.
-/
import proofs.«419940_j22909355557427_1_alg».proof.Proof.KB.Runs

set_option maxRecDepth 16384

noncomputable section

namespace Cert.Kernel.Body

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks the body loads at point `t`, at their literal types: the row endpoints, the column endpoints, the
    weights of the point's edge block, and the point's chunk of node features. -/
abbrev rblk (c : Dev nD) (t : Fin cfg0.N) : Vec F S2048x1 .i32 := iblk m c 0 t
abbrev cblk (c : Dev nD) (t : Fin cfg0.N) : Vec F S2048x1 .i32 := iblk m c 1 t
abbrev vblk (c : Dev nD) (t : Fin cfg0.N) : Vec F S2048x1 .f32 := iblk m c 2 t
abbrev xblk (c : Dev nD) (t : Fin cfg0.N) : Vec F S2048x128 .bf16 := iblk m c 3 t

/-- The output cell and the two accumulators. -/
abbrev St (F : FTy → Type) [FloatOps F] : Type := Vec F S1x1x1 .f32 × Vec F S2048x128 .f32 × Vec F S2048x128 .f32

/-- One point's effect on the three buffers, from what the point before left. -/
def step (c : Dev nD) (t : Fin cfg0.N) (p : St F) : St F :=
  let sR := accR (grid0.coords t) (rblk m c t) (xblk m c t) (if t.val % 49 = 0 then k0_pay4 else p.2.1)
  let sC := accC (grid0.coords t) (cblk m c t) (xblk m c t) (if t.val % 49 = 0 then k0_pay5 else p.2.2)
  let o0 := if t.val % 19159 = 0 then k0_pay3 else p.1
  (if t.val % 49 = 48 then k0_pay2 (vblk m c t) sR sC o0 else o0, sR, sC)

/-- What the three buffers hold after the body at point `n`. -/
def stAt (c : Dev nD) : (n : ℕ) → n < cfg0.N → St F
  | 0, hn => step m c ⟨0, hn⟩ (k0_pay3, k0_pay4, k0_pay5)
  | n + 1, hn => step m c ⟨n + 1, hn⟩ (stAt c n (Nat.lt_of_succ_lt hn))

/-- After the first point the recursion takes what the point before left. -/
theorem stAt_pos (c : Dev nD) (t : Fin cfg0.N) (ht : t.val ≠ 0) :
    stAt m c t.val t.isLt = step m c t (stAt m c (t.val - 1) (Nat.lt_of_le_of_lt (Nat.sub_le _ _) t.isLt)) := by
  obtain ⟨n, hn⟩ := t
  cases n with
  | zero => exact absurd rfl ht
  | succ n => rfl

/-- At a core's first point. -/
theorem stAt_first (c : Dev nD) (t : Fin cfg0.N) (h0 : t.val % 19159 = 0) :
    stAt m c t.val t.isLt = (k0_pay3, accR (grid0.coords t) (rblk m c t) (xblk m c t) k0_pay4,
      accC (grid0.coords t) (cblk m c t) (xblk m c t) k0_pay5) := by
  have h1 : t.val % 49 = 0 := by omega
  have h2 : ¬ t.val % 49 = 48 := by omega
  obtain ⟨n, hn⟩ := t
  cases n with
  | zero => unfold stAt step; dsimp only at h0 h1 h2 ⊢; rw [if_pos h1, if_pos h1, if_pos h0, if_neg h2]
  | succ n => unfold stAt step; dsimp only at h0 h1 h2 ⊢; rw [if_pos h1, if_pos h1, if_pos h0, if_neg h2]

/-- At the first node chunk of a later edge block. -/
theorem stAt_reset (c : Dev nD) (t : Fin cfg0.N) (h0 : ¬ t.val % 19159 = 0) (h1 : t.val % 49 = 0) :
    stAt m c t.val t.isLt = ((stAt m c (t.val - 1) (Nat.lt_of_le_of_lt (Nat.sub_le _ _) t.isLt)).1,
      accR (grid0.coords t) (rblk m c t) (xblk m c t) k0_pay4, accC (grid0.coords t) (cblk m c t) (xblk m c t) k0_pay5) := by
  have h2 : ¬ t.val % 49 = 48 := by omega
  have ht : t.val ≠ 0 := fun h => h0 (by rw [h])
  rw [stAt_pos m c t ht]; unfold step; dsimp only; rw [if_pos h1, if_pos h1, if_neg h0, if_neg h2]

/-- At a middle node chunk. -/
theorem stAt_mid (c : Dev nD) (t : Fin cfg0.N) (h1 : ¬ t.val % 49 = 0) (h2 : ¬ t.val % 49 = 48) :
    stAt m c t.val t.isLt = ((stAt m c (t.val - 1) (Nat.lt_of_le_of_lt (Nat.sub_le _ _) t.isLt)).1,
      accR (grid0.coords t) (rblk m c t) (xblk m c t) (stAt m c (t.val - 1) (Nat.lt_of_le_of_lt (Nat.sub_le _ _) t.isLt)).2.1,
      accC (grid0.coords t) (cblk m c t) (xblk m c t) (stAt m c (t.val - 1) (Nat.lt_of_le_of_lt (Nat.sub_le _ _) t.isLt)).2.2) := by
  have h0 : ¬ t.val % 19159 = 0 := by omega
  have ht : t.val ≠ 0 := fun h => h0 (by rw [h])
  rw [stAt_pos m c t ht]; unfold step; dsimp only; rw [if_neg h1, if_neg h1, if_neg h0, if_neg h2]

/-- At the last node chunk. -/
theorem stAt_last (c : Dev nD) (t : Fin cfg0.N) (h2 : t.val % 49 = 48) :
    stAt m c t.val t.isLt = (k0_pay2 (vblk m c t)
        (accR (grid0.coords t) (rblk m c t) (xblk m c t) (stAt m c (t.val - 1) (Nat.lt_of_le_of_lt (Nat.sub_le _ _) t.isLt)).2.1)
        (accC (grid0.coords t) (cblk m c t) (xblk m c t) (stAt m c (t.val - 1) (Nat.lt_of_le_of_lt (Nat.sub_le _ _) t.isLt)).2.2)
        (stAt m c (t.val - 1) (Nat.lt_of_le_of_lt (Nat.sub_le _ _) t.isLt)).1,
      accR (grid0.coords t) (rblk m c t) (xblk m c t) (stAt m c (t.val - 1) (Nat.lt_of_le_of_lt (Nat.sub_le _ _) t.isLt)).2.1,
      accC (grid0.coords t) (cblk m c t) (xblk m c t) (stAt m c (t.val - 1) (Nat.lt_of_le_of_lt (Nat.sub_le _ _) t.isLt)).2.2) := by
  have h1 : ¬ t.val % 49 = 0 := by omega
  have h0 : ¬ t.val % 19159 = 0 := by omega
  have ht : t.val ≠ 0 := fun h => h0 (by rw [h])
  rw [stAt_pos m c t ht]; unfold step; dsimp only; rw [if_neg h1, if_neg h1, if_neg h0, if_pos h2]

/-- Where the output cell is left alone it holds what the point before left. -/
theorem stAt_idle_fst (c : Dev nD) (t : Fin cfg0.N) (h0 : ¬ t.val % 19159 = 0) (h2 : ¬ t.val % 49 = 48) :
    (stAt m c t.val t.isLt).1 = (stAt m c (t.val - 1) (Nat.lt_of_le_of_lt (Nat.sub_le _ _) t.isLt)).1 := by
  have ht : t.val ≠ 0 := fun h => h0 (by rw [h])
  rw [stAt_pos m c t ht]; unfold step; dsimp only; rw [if_neg h0, if_neg h2]

/-! ## The proof data -/

/-- The invariant between points: before the first point what the launch hands the region; afterwards the two
    accumulators at what the point before left, and the generator register. -/
def PhiS (c : Dev nD) : (n : ℕ) → n ≤ cfg0.N → sProp 𝕄
  | 0, _ => Pipeline.ΦA spec0 c
  | n + 1, hn => iprop(iprop(owns (c : Thread nD τ) scR fullShare ((stAt m c n hn).2.1) ∗ owns (c : Thread nD τ) scC fullShare ((stAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scR fullShare ((stAt m c n hn).2.1) ∗ owns (c : Thread nD τ) scC fullShare ((stAt m c n hn).2.2)) ∗ (∃ r, prngReg c r)) := rfl
theorem PhiS_pos (c : Dev nD) (n : ℕ) (h : n ≤ cfg0.N) (hz : n ≠ 0) :
    PhiS m c n h = iprop(iprop(owns (c : Thread nD τ) scR fullShare ((stAt m c (n - 1) (by omega)).2.1) ∗ owns (c : Thread nD τ) scC fullShare ((stAt m c (n - 1) (by omega)).2.2)) ∗ (∃ r, prngReg c r)) := by
  cases n with
  | zero => exact absurd rfl hz
  | succ n => rfl

/-- The proof data of the pipeline on core `c`: the arrays as the region finds them; after the body each input's
    buffer at its block and the output's at the cell's contents; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (stAt m c t.val t.isLt).1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- BETWEEN A CORE'S FIRST POINT AND ITS LAST the output window's buffer holds what the point before left in the
    cell: the buffer is not written back in between, and a point that leaves it alone hands it on as found. -/
theorem before4 (c : Dev nD) : ∀ (n : ℕ) (hn : n < cfg0.N), ¬ n % 19159 = 0 → ∀ d,
    (dats m 0 c).before 4 ⟨n, hn⟩ d = (stAt m c (n - 1) (Nat.lt_of_le_of_lt (Nat.sub_le _ _) hn)).1 := by
  intro n
  induction n using Nat.strong_induction_on with
  | _ n ih =>
    intro hn h0 d
    have hn0 : n ≠ 0 := fun h => h0 (by rw [h])
    have hfl : (cfg0.win 4).flush ⟨n - 1, Nat.lt_of_le_of_lt (Nat.sub_le _ _) hn⟩ = false := by
      rw [Bool.eq_false_iff]; intro h; have := (flush0_4 _).mp h; dsimp only at this; omega
    rw [(dats m 0 c).before_of_pos 4 ⟨n, hn⟩ hn0 ((cfg0.win 4).fetch_out rfl _), hfl, if_neg Bool.false_ne_true]
    unfold Dat.left
    by_cases hi : cfg0.idle 4 (cfg0.grid.coords ⟨n - 1, Nat.lt_of_le_of_lt (Nat.sub_le _ _) hn⟩) = true
    · rw [hi]; dsimp only
      have hh := (idle4 ⟨n - 1, Nat.lt_of_le_of_lt (Nat.sub_le _ _) hn⟩).mp hi
      dsimp only at hh
      rw [ih (n - 1) (by omega) (Nat.lt_of_le_of_lt (Nat.sub_le _ _) hn) hh.1 d]
      exact (stAt_idle_fst m c ⟨n - 1, Nat.lt_of_le_of_lt (Nat.sub_le _ _) hn⟩ hh.1 hh.2).symm
    · rw [Bool.not_eq_true] at hi
      rw [hi]; dsimp only
      unfold Dat.kept
      rw [Pipeline.fill_of_clip_none (cfg := cfg0) 4 _ (fun _ => rfl) d ((dats m 0 c).after 4 ⟨n - 1, Nat.lt_of_le_of_lt (Nat.sub_le _ _) hn⟩),
        Window.fill_cut, after4]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
/-- Where the body writes the output cell, the obligation asks for the cell's stated contents; -/
theorem leaves4_live (c : Dev nD) (t : Fin cfg0.N) (h : t.val % 19159 = 0 ∨ t.val % 49 = 48) :
    (dats m 0 c).leavesExact 4 t = owns (c : Thread nD τ) (ms4 t) fullShare ((stAt m c t.val t.isLt).1) := by
  have hi : cfg0.idle 4 (grid0.coords t) = false := by
    rw [Bool.eq_false_iff]; intro hh; have := (idle4 t).mp hh; omega
  unfold Dat.leavesExact; rw [show cfg0.grid.coords t = grid0.coords t from rfl, hi, after4]
/-- where it leaves it alone, for the buffer as found. -/
theorem leaves4_idle (c : Dev nD) (t : Fin cfg0.N) (h0 : ¬ t.val % 19159 = 0) (h2 : ¬ t.val % 49 = 48) :
    (dats m 0 c).leavesExact 4 t = iprop(∃ d, owns (c : Thread nD τ) (ms4 t) fullShare ((dats m 0 c).before 4 t d)) := by
  have hi : cfg0.idle 4 (grid0.coords t) = true := (idle4 t).mpr ⟨h0, h2⟩
  have hf : (cfg0.win 4).flush t = false := by
    rw [Bool.eq_false_iff]; intro h; have := (flush0_4 t).mp h; omega
  exact (dats m 0 c).leavesExact_idle 4 t hi hf

set_option maxHeartbeats 1600000 in
/-- The body at any point: by the point's remainders it is one of the four runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, leaves0, leaves1, leaves2, leaves3]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 38318 := lt_of_lt_of_eq t.isLt (show cfg0.N = 38318 from N_0)
  by_cases h0 : t.val % 19159 = 0
  · -- a core's first point
    have h1 : t.val % 49 = 0 := by omega
    have h2 : ¬ t.val % 49 = 48 := by omega
    rw [leaves4_live m c t (.inl h0), stAt_first m c t h0]; dsimp only
    by_cases hz : t.val = 0
    · rw [PhiS_zero m c _ _ hz, PhiA_eq]
      iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩⟩
      iapply (run_first c (grid0.coords t) _ _ _ _ _ _ _ _ _ _ _ _ _ _ ((hcondOut t).mpr h0) ((hcondAcc t).mpr h1) (fun h => h2 ((hcondSum t).mp h)) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · rw [PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply (run_first c (grid0.coords t) _ _ _ _ _ _ _ _ _ _ _ _ _ _ ((hcondOut t).mpr h0) ((hcondAcc t).mpr h1) (fun h => h2 ((hcondSum t).mp h)) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
  · have hz : t.val ≠ 0 := fun h => h0 (by rw [h])
    rw [PhiS_pos m c _ _ hz]
    by_cases h1 : t.val % 49 = 0
    · -- the first node chunk of a later edge block
      have h2 : ¬ t.val % 49 = 48 := by omega
      rw [leaves4_idle m c t h0 h2, stAt_reset m c t h0 h1]; dsimp only
      iintro ⟨⟨⟨HS0, HS1⟩, Hg⟩, Ho, ⟨%d0, H0⟩, ⟨%d1, H1⟩, ⟨%d2, H2⟩, ⟨%d3, H3⟩, H4⟩
      iapply (run_reset c (grid0.coords t) _ _ _ _ _ _ _ _ (ms4 t) (hs4 t) _ _ _ _ (fun h => h0 ((hcondOut t).mp h)) ((hcondAcc t).mpr h1) (fun h => h2 ((hcondSum t).mp h)) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · by_cases h2 : t.val % 49 = 48
      · -- the last node chunk
        rw [leaves4_live m c t (.inr h2), stAt_last m c t h2]; dsimp only
        simp only [before4 m c t.val t.isLt h0]
        iintro ⟨⟨⟨HS0, HS1⟩, Hg⟩, Ho, ⟨%d0, H0⟩, ⟨%d1, H1⟩, ⟨%d2, H2⟩, ⟨%d3, H3⟩, ⟨%d4, H4⟩⟩
        iapply (run_last c (grid0.coords t) _ _ _ _ _ _ _ _ _ _ _ _ _ _ (fun h => h0 ((hcondOut t).mp h)) (fun h => h1 ((hcondAcc t).mp h)) ((hcondSum t).mpr h2) (iblk m c 0 t) (iblk m c 1 t) (iblk m c 2 t) (iblk m c 3 t) _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        isplitl [H3]; · iexact H3
        iexact H4
      · -- a middle node chunk
        rw [leaves4_idle m c t h0 h2, stAt_mid m c t h1 h2]; dsimp only
        iintro ⟨⟨⟨HS0, HS1⟩, Hg⟩, Ho, ⟨%d0, H0⟩, ⟨%d1, H1⟩, ⟨%d2, H2⟩, ⟨%d3, H3⟩, H4⟩
        iapply (run_mid c (grid0.coords t) _ _ _ _ _ _ _ _ (ms4 t) (hs4 t) _ _ _ _ (fun h => h0 ((hcondOut t).mp h)) (fun h => h1 ((hcondAcc t).mp h)) (fun h => h2 ((hcondSum t).mp h)) (iblk m c 0 t) (iblk m c 1 t) (iblk m c 2 t) (iblk m c 3 t) _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        isplitl [H3]; · iexact H3
        iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back what the launch handed over: the accumulators at some
    contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 38318 := N_0; omega)

/-! ## The run and the frame -/

set_option maxRecDepth 65536 in
set_option backward.isDefEq.respectTransparency.types false in
/-- Every weakly fair execution of the program terminates; afterwards every array of the pipeline holds what the
    proof data computes (the output array: the cells written back after each core's last point), and every other
    buffer what the host operations after the region make of that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c w => by unfold Dat.share; dsimp only [dats]; exact ite_self _)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KI.Conds.lean ====
/-
  The grid of the kernel, point by point: which of the body's three conditionals holds where, where the output
  window's buffer is left alone, and the names of the buffers the body is called with.

  The grid is `2 × 391 × 49`, walked in row-major order, so point `t` has node chunk `j = t mod 49`, edge block
  `(t / 49) mod 391`, and is the first point of a core exactly when `t mod 19159 = 0` (`19159 = 391 · 49`).
-/
import proofs.«419940_j22909355557427_1_alg».proof.Proof.KI.FrameP
import proofs.«419940_j22909355557427_1_alg».proof.Proof.Gen.KernelIdeal.Skeleton

set_option maxRecDepth 16384

noncomputable section

namespace Cert.KernelIdeal.Body

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The coordinates of a point -/

theorem stride2 : grid0.stride 2 = 1 := by decide
theorem stride1 : grid0.stride 1 = 49 := by decide
theorem stride0 : grid0.stride 0 = 19159 := by decide

/-- The node chunk of point `t`. -/
theorem coords2 (t : Fin grid0.N) : (grid0.coords t 2).val = t.val % 49 := by
  show t.val / grid0.stride 2 % 49 = _
  rw [stride2, Nat.div_one]
/-- The edge block, within its core, of point `t`. -/
theorem coords1 (t : Fin grid0.N) : (grid0.coords t 1).val = t.val / 49 % 391 := by
  show t.val / grid0.stride 1 % 391 = _
  rw [stride1]
/-- The core of point `t`. -/
theorem coords0 (t : Fin grid0.N) : (grid0.coords t 0).val = t.val / 19159 % 2 := by
  show t.val / grid0.stride 0 % 2 = _
  rw [stride0]

/-! ## The conditionals -/

theorem eq0_391 : ∀ a : Fin 391, Scalar.cmpi .eq (BitVec.ofNat 32 a.val) 0#32 = 1#1 ↔ a.val = 0 := by decide
theorem eq0_49 : ∀ a : Fin 49, Scalar.cmpi .eq (BitVec.ofNat 32 a.val) 0#32 = 1#1 ↔ a.val = 0 := by decide
theorem eq48_49 : ∀ a : Fin 49, Scalar.cmpi .eq (BitVec.ofNat 32 a.val) 48#32 = 1#1 ↔ a.val = 48 := by decide
theorem ne0_ext : ∀ u : BitVec 1, Scalar.cmpi .ne (Scalar.extui u : BitVec 32) 0#32 = 1#1 ↔ u = 1#1 := by decide
theorem and1 : ∀ u v : BitVec 1, Scalar.andi u v = 1#1 ↔ u = 1#1 ∧ v = 1#1 := by decide

/-- The body clears the output cell: first edge block and first node chunk of a core. -/
abbrev condOut (i : grid0.Coords) : Prop := k0_cond1 i = 1#1
/-- The body clears the accumulators: first node chunk. -/
abbrev condAcc (i : grid0.Coords) : Prop := (Scalar.cmpi .ne (Scalar.extui (Scalar.cmpi .eq (BitVec.ofNat 32 (i 2).val) 0#32)) 0#32) = 1#1
/-- The body adds the block's sum to the output cell: last node chunk. -/
abbrev condSum (i : grid0.Coords) : Prop := k0_cond3 i = 1#1

theorem condSum_iff (i : grid0.Coords) : condSum i ↔ (i 2).val = 48 := by
  unfold condSum k0_cond3
  dsimp only
  rw [ne0_ext]
  exact eq48_49 (i 2)

theorem condOut_iff (i : grid0.Coords) : condOut i ↔ (i 1).val = 0 ∧ (i 2).val = 0 := by
  unfold condOut k0_cond1
  dsimp only
  rw [ne0_ext, and1]
  exact and_congr (eq0_391 (i 1)) (eq0_49 (i 2))

theorem condAcc_iff (i : grid0.Coords) : condAcc i ↔ (i 2).val = 0 := by
  unfold condAcc
  rw [ne0_ext]
  exact eq0_49 (i 2)

/-- The output cell is cleared at the first point of each core. -/
theorem hcondOut (t : Fin cfg0.N) : condOut (grid0.coords t) ↔ t.val % 19159 = 0 := by
  rw [condOut_iff, coords1, coords2]; omega
/-- The accumulators are cleared at the first node chunk of each edge block. -/
theorem hcondAcc (t : Fin cfg0.N) : condAcc (grid0.coords t) ↔ t.val % 49 = 0 := by
  rw [condAcc_iff, coords2]
/-- The block's sum is added at the last node chunk of each edge block. -/
theorem hcondSum (t : Fin cfg0.N) : condSum (grid0.coords t) ↔ t.val % 49 = 48 := by
  rw [condSum_iff, coords2]

/-- The input windows are never idle. -/
theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl
/-- The output window's buffer is left alone exactly where the body neither clears the cell nor adds to it. -/
theorem idle4 (t : Fin cfg0.N) : cfg0.idle 4 (grid0.coords t) = true ↔ (t.val % 19159 ≠ 0 ∧ t.val % 49 ≠ 48) := by
  show (!(k0_cond1 (grid0.coords t) == 1#1) && !(k0_cond3 (grid0.coords t) == 1#1)) = true ↔ _
  rw [Bool.and_eq_true, Bool.not_eq_true', Bool.not_eq_true', beq_eq_false_iff_ne, beq_eq_false_iff_ne]
  exact and_congr (not_congr (hcondOut t)) (not_congr (hcondSum t))

/-- Each window's current staging buffer at point `t`, as the pipeline passes it to the body, and that it is a whole buffer. -/
abbrev ms0 (t : Fin cfg0.N) : Memref sig .tc .vmem S2048x1 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1 .f32 := win0_4.stage (cfg0.slots t 4)
abbrev hs4 (t : Fin cfg0.N) : (ms4 t).IsWhole := hstage0_4 ((cfg0.slots t 4).cast nbuf0_4)
/-- The two accumulators: whole buffers of the kernel's own. -/
abbrev scR : Memref sig .tc .vmem S2048x128 .f32 := Memref.whole cc0_scratch0
abbrev scC : Memref sig .tc .vmem S2048x128 .f32 := Memref.whole cc0_scratch1

/-- What the region's launch hands the body besides the windows: the two accumulators at some contents, and the
    generator register. -/
theorem PhiA_eq (c : Dev nD) :
    (Pipeline.ΦA spec0 c : sProp 𝕄)
      = iprop(iprop((∃ d, owns (c : Thread nD τ) scR fullShare d) ∗ (∃ d, owns (c : Thread nD τ) scC fullShare d)) ∗ (∃ r, prngReg c r)) := by
  unfold Pipeline.ΦA; rw [scopedRest0_eq]; simp only [scR, scC, owns_whole]; try rfl

end Cert.KernelIdeal.Body

end
-- ==== Proof.KI.Runs.lean ====
/-
  The kernel body run once, in each of the four ways its three conditionals can go on the grid.

  The body is a function of the grid point `(c, i, j)`: the core, the edge block and the node chunk. It clears
  the output cell at the first point of a core (`i = 0`, `j = 0`), clears the two accumulators at the first
  chunk of an edge block (`j = 0`), adds to each accumulator the product of the endpoints' one-hot matrix with the
  chunk of node features, and at the last chunk (`j = 48`) adds the block's weighted sum of row inner products to
  the output cell. Each run below says what the three buffers the body writes hold afterwards, as the body's own
  stored values (`k0_payN`) of what the buffers held before.
-/
import proofs.«419940_j22909355557427_1_alg».proof.Proof.KI.Conds
import Idealize.ShloMosaic.Lib.Pipeline.Value

set_option maxRecDepth 16384

noncomputable section

namespace Cert.KernelIdeal.Body

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store through the whole block at zero offsets, made last, is what the buffer reads afterwards, whatever was
    stored before it. -/
private theorem read_writes_unit_zero {sg : RefSig} {κ : Kind} {sp : Space} {S : Shape} {e : EltTy} {Val : EltTy → Type}
    [∀ e, Nonempty (Val e)] (v : View sg κ sp S e) (f : v.ty.Contents Val) {off : Fin S.rank → Nat}
    (hz : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero hz inb y⟩),
    View.canon_cons_unit_zero hz]

/-- The zero offsets of a block of rank two, and of rank three. -/
private theorem zeros2 : (![0, 0] : Fin 2 → Nat) = fun _ => 0 := by funext a; fin_cases a <;> rfl
private theorem zeros3 : (![0, 0, 0] : Fin 3 → Nat) = fun _ => 0 := by funext a; fin_cases a <;> rfl

/-- The row accumulator after the body, from what it held when the product was added. -/
abbrev accR (i : grid0.Coords) (x0 : Vec F S2048x1 .i32) (x3 : Vec F S2048x128 .bf16) (s : Vec F S2048x128 .f32) : Vec F S2048x128 .f32 :=
  k0_pay8 i x0 x3 s
/-- The column accumulator after the body, from what it held when the product was added. -/
abbrev accC (i : grid0.Coords) (x1 : Vec F S2048x1 .i32) (x3 : Vec F S2048x128 .bf16) (s : Vec F S2048x128 .f32) : Vec F S2048x128 .f32 :=
  k0_pay1 (k0_pay7 x3) (k0_pay9 i x1) s

/-- First point of a core: the output cell and both accumulators are cleared, then the accumulators take the
    chunk's products. -/
theorem run_first (c : Dev nD) (i : grid0.Coords) (arg3 : Memref sig .tc .vmem S2048x1 .i32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x128 .bf16) (harg6 : arg6.IsWhole) (arg7 : Memref sig .tc .vmem S1x1x1 .f32) (harg7 : arg7.IsWhole) (arg8 : Memref sig .tc .vmem S2048x128 .f32) (harg8 : arg8.IsWhole) (arg9 : Memref sig .tc .vmem S2048x128 .f32) (harg9 : arg9.IsWhole)
    (hc0 : condOut i) (hc1 : condAcc i) (hc2 : ¬condSum i)
    (x0 : Vec F S2048x1 .i32) (x1 : Vec F S2048x1 .i32) (x2 : Vec F S2048x1 .f32) (x3 : Vec F S2048x128 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay3 (F := F)) ∗ owns (c : Thread nD τ) arg8 fullShare (accR i x0 x3 (k0_pay4 (F := F))) ∗ owns (c : Thread nD τ) arg9 fullShare (accC i x1 x3 (k0_pay5 (F := F)))) -∗ K ⟨⟩))
      ⊢ wp frame (wpE (defs₀ (F := F)) Variants.none c none) E (cc0__kernel i arg3 harg3 arg4 harg4 arg5 harg5 arg6 harg6 arg7 harg7 arg8 harg8 arg9 harg9) K := by
  simp only [cc0__kernel_eq_skeleton]; unfold cc0__kernel_skel; simp only [k0_part1_eq_skeleton]
  unfold owns
  iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hk⟩
  obtain rfl := harg3.eq_unread hf0; obtain rfl := harg4.eq_unread hf1; obtain rfl := harg5.eq_unread hf2; obtain rfl := harg6.eq_unread hf3
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; swap; · iexact H7
    ipureintro
    sl_unfold_words
    exact read_writes_unit_zero _ _ zeros3 _ _ _
  isplitl [H8]
  · iexists _; isplitr; swap; · iexact H8
    ipureintro
    sl_unfold_words
    refine (read_writes_unit_zero _ _ zeros2 _ _ _).trans ?_
    simp only [View.readAt_eq_ld, harg3.read_unread, harg4.read_unread, harg5.read_unread, harg6.read_unread, harg7.read_unread, harg8.read_unread, harg9.read_unread, View.ld_unit_zero (S := S2048x1) zeros2, View.ld_unit_zero (S := S2048x128) zeros2, View.ld_unit_zero (S := S1x1x1) zeros3, View.readCov_unit_zero (S := S2048x128) _ zeros2, View.readCov_unit_zero (S := S1x1x1) _ zeros3]
  · iexists _; isplitr; swap; · iexact H9
    ipureintro
    sl_unfold_words
    refine (read_writes_unit_zero _ _ zeros2 _ _ _).trans ?_
    simp only [View.readAt_eq_ld, harg3.read_unread, harg4.read_unread, harg5.read_unread, harg6.read_unread, harg7.read_unread, harg8.read_unread, harg9.read_unread, View.ld_unit_zero (S := S2048x1) zeros2, View.ld_unit_zero (S := S2048x128) zeros2, View.ld_unit_zero (S := S1x1x1) zeros3, View.readCov_unit_zero (S := S2048x128) _ zeros2, View.readCov_unit_zero (S := S1x1x1) _ zeros3]

/-- First node chunk of a later edge block: the accumulators are cleared and take the chunk's products; the
    output cell is not touched. -/
theorem run_reset (c : Dev nD) (i : grid0.Coords) (arg3 : Memref sig .tc .vmem S2048x1 .i32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x128 .bf16) (harg6 : arg6.IsWhole) (arg7 : Memref sig .tc .vmem S1x1x1 .f32) (harg7 : arg7.IsWhole) (arg8 : Memref sig .tc .vmem S2048x128 .f32) (harg8 : arg8.IsWhole) (arg9 : Memref sig .tc .vmem S2048x128 .f32) (harg9 : arg9.IsWhole)
    (hc0 : ¬condOut i) (hc1 : condAcc i) (hc2 : ¬condSum i)
    (x0 : Vec F S2048x1 .i32) (x1 : Vec F S2048x1 .i32) (x2 : Vec F S2048x1 .f32) (x3 : Vec F S2048x128 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare (accR i x0 x3 (k0_pay4 (F := F))) ∗ owns (c : Thread nD τ) arg9 fullShare (accC i x1 x3 (k0_pay5 (F := F)))) -∗ K ⟨⟩))
      ⊢ wp frame (wpE (defs₀ (F := F)) Variants.none c none) E (cc0__kernel i arg3 harg3 arg4 harg4 arg5 harg5 arg6 harg6 arg7 harg7 arg8 harg8 arg9 harg9) K := by
  simp only [cc0__kernel_eq_skeleton]; unfold cc0__kernel_skel; simp only [k0_part1_eq_skeleton]
  unfold owns
  iintro ⟨⟨%f0, %hf0, H0⟩, ⟨%f1, %hf1, H1⟩, ⟨%f2, %hf2, H2⟩, ⟨%f3, %hf3, H3⟩, ⟨%d8, %f8, -, H8⟩, ⟨%d9, %f9, -, H9⟩, Hk⟩
  obtain rfl := harg3.eq_unread hf0; obtain rfl := harg4.eq_unread hf1; obtain rfl := harg5.eq_unread hf2; obtain rfl := harg6.eq_unread hf3
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H8]
  · iexists _; isplitr; swap; · iexact H8
    ipureintro
    sl_unfold_words
    refine (read_writes_unit_zero _ _ zeros2 _ _ _).trans ?_
    simp only [View.readAt_eq_ld, harg3.read_unread, harg4.read_unread, harg5.read_unread, harg6.read_unread, harg7.read_unread, harg8.read_unread, harg9.read_unread, View.ld_unit_zero (S := S2048x1) zeros2, View.ld_unit_zero (S := S2048x128) zeros2, View.ld_unit_zero (S := S1x1x1) zeros3, View.readCov_unit_zero (S := S2048x128) _ zeros2, View.readCov_unit_zero (S := S1x1x1) _ zeros3]
  · iexists _; isplitr; swap; · iexact H9
    ipureintro
    sl_unfold_words
    refine (read_writes_unit_zero _ _ zeros2 _ _ _).trans ?_
    simp only [View.readAt_eq_ld, harg3.read_unread, harg4.read_unread, harg5.read_unread, harg6.read_unread, harg7.read_unread, harg8.read_unread, harg9.read_unread, View.ld_unit_zero (S := S2048x1) zeros2, View.ld_unit_zero (S := S2048x128) zeros2, View.ld_unit_zero (S := S1x1x1) zeros3, View.readCov_unit_zero (S := S2048x128) _ zeros2, View.readCov_unit_zero (S := S1x1x1) _ zeros3]

/-- A middle node chunk: the accumulators take the chunk's products over what they held; the output cell is not
    touched. -/
theorem run_mid (c : Dev nD) (i : grid0.Coords) (arg3 : Memref sig .tc .vmem S2048x1 .i32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x128 .bf16) (harg6 : arg6.IsWhole) (arg7 : Memref sig .tc .vmem S1x1x1 .f32) (harg7 : arg7.IsWhole) (arg8 : Memref sig .tc .vmem S2048x128 .f32) (harg8 : arg8.IsWhole) (arg9 : Memref sig .tc .vmem S2048x128 .f32) (harg9 : arg9.IsWhole)
    (hc0 : ¬condOut i) (hc1 : ¬condAcc i) (hc2 : ¬condSum i)
    (x0 : Vec F S2048x1 .i32) (x1 : Vec F S2048x1 .i32) (x2 : Vec F S2048x1 .f32) (x3 : Vec F S2048x128 .bf16)
    (xs0 : Vec F S2048x128 .f32) (xs1 : Vec F S2048x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg8 fullShare (accR i x0 x3 xs0) ∗ owns (c : Thread nD τ) arg9 fullShare (accC i x1 x3 xs1)) -∗ K ⟨⟩))
      ⊢ wp frame (wpE (defs₀ (F := F)) Variants.none c none) E (cc0__kernel i arg3 harg3 arg4 harg4 arg5 harg5 arg6 harg6 arg7 harg7 arg8 harg8 arg9 harg9) K := by
  simp only [cc0__kernel_eq_skeleton]; unfold cc0__kernel_skel; simp only [k0_part1_eq_skeleton]
  unfold owns
  iintro ⟨⟨%f0, %hf0, H0⟩, ⟨%f1, %hf1, H1⟩, ⟨%f2, %hf2, H2⟩, ⟨%f3, %hf3, H3⟩, ⟨%f8, %hf8, H8⟩, ⟨%f9, %hf9, H9⟩, Hk⟩
  obtain rfl := harg3.eq_unread hf0; obtain rfl := harg4.eq_unread hf1; obtain rfl := harg5.eq_unread hf2; obtain rfl := harg6.eq_unread hf3
  obtain rfl := harg8.eq_unread hf8; obtain rfl := harg9.eq_unread hf9
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H8]
  · iexists _; isplitr; swap; · iexact H8
    ipureintro
    refine (read_writes_unit_zero _ _ zeros2 _ _ _).trans ?_
    simp only [View.readAt_eq_ld, harg3.read_unread, harg6.read_unread, harg8.read_unread, View.ld_unit_zero (S := S2048x1) zeros2, View.ld_unit_zero (S := S2048x128) zeros2]
  · iexists _; isplitr; swap; · iexact H9
    ipureintro
    sl_unfold_words
    refine (read_writes_unit_zero _ _ zeros2 _ _ _).trans ?_
    simp only [View.readAt_eq_ld, harg4.read_unread, harg6.read_unread, harg9.read_unread, View.ld_unit_zero (S := S2048x1) zeros2, View.ld_unit_zero (S := S2048x128) zeros2]

/-- The last node chunk: the accumulators take the chunk's products, and the output cell takes, over what it
    held, the block's weighted sum of the accumulators' row inner products. -/
theorem run_last (c : Dev nD) (i : grid0.Coords) (arg3 : Memref sig .tc .vmem S2048x1 .i32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x128 .bf16) (harg6 : arg6.IsWhole) (arg7 : Memref sig .tc .vmem S1x1x1 .f32) (harg7 : arg7.IsWhole) (arg8 : Memref sig .tc .vmem S2048x128 .f32) (harg8 : arg8.IsWhole) (arg9 : Memref sig .tc .vmem S2048x128 .f32) (harg9 : arg9.IsWhole)
    (hc0 : ¬condOut i) (hc1 : ¬condAcc i) (hc2 : condSum i)
    (x0 : Vec F S2048x1 .i32) (x1 : Vec F S2048x1 .i32) (x2 : Vec F S2048x1 .f32) (x3 : Vec F S2048x128 .bf16)
    (xs0 : Vec F S2048x128 .f32) (xs1 : Vec F S2048x128 .f32) (o : Vec F S1x1x1 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare o ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay2 x2 (accR i x0 x3 xs0) (accC i x1 x3 xs1) o) ∗ owns (c : Thread nD τ) arg8 fullShare (accR i x0 x3 xs0) ∗ owns (c : Thread nD τ) arg9 fullShare (accC i x1 x3 xs1)) -∗ K ⟨⟩))
      ⊢ wp frame (wpE (defs₀ (F := F)) Variants.none c none) E (cc0__kernel i arg3 harg3 arg4 harg4 arg5 harg5 arg6 harg6 arg7 harg7 arg8 harg8 arg9 harg9) K := by
  simp only [cc0__kernel_eq_skeleton]; unfold cc0__kernel_skel; simp only [k0_part1_eq_skeleton]
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
  obtain rfl := harg3.eq_unread hf0; obtain rfl := harg4.eq_unread hf1; obtain rfl := harg5.eq_unread hf2; obtain rfl := harg6.eq_unread hf3
  obtain rfl := harg7.eq_unread hf7; obtain rfl := harg8.eq_unread hf8; obtain rfl := harg9.eq_unread hf9
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; swap; · iexact H7
    ipureintro
    sl_unfold_words
    refine (read_writes_unit_zero _ _ zeros3 _ _ _).trans ?_
    simp only [View.readAt_eq_ld, harg3.read_unread, harg4.read_unread, harg5.read_unread, harg6.read_unread, harg7.read_unread, harg8.read_unread, harg9.read_unread, View.ld_unit_zero (S := S2048x1) zeros2, View.ld_unit_zero (S := S2048x128) zeros2, View.ld_unit_zero (S := S1x1x1) zeros3, View.readCov_unit_zero (S := S2048x128) _ zeros2, View.readCov_unit_zero (S := S1x1x1) _ zeros3]
  isplitl [H8]
  · iexists _; isplitr; swap; · iexact H8
    ipureintro
    sl_unfold_words
    refine (read_writes_unit_zero _ _ zeros2 _ _ _).trans ?_
    simp only [View.readAt_eq_ld, harg3.read_unread, harg4.read_unread, harg5.read_unread, harg6.read_unread, harg7.read_unread, harg8.read_unread, harg9.read_unread, View.ld_unit_zero (S := S2048x1) zeros2, View.ld_unit_zero (S := S2048x128) zeros2, View.ld_unit_zero (S := S1x1x1) zeros3, View.readCov_unit_zero (S := S2048x128) _ zeros2, View.readCov_unit_zero (S := S1x1x1) _ zeros3]
  · iexists _; isplitr; swap; · iexact H9
    ipureintro
    sl_unfold_words
    refine (read_writes_unit_zero _ _ zeros2 _ _ _).trans ?_
    simp only [View.readAt_eq_ld, harg3.read_unread, harg4.read_unread, harg5.read_unread, harg6.read_unread, harg7.read_unread, harg8.read_unread, harg9.read_unread, View.ld_unit_zero (S := S2048x1) zeros2, View.ld_unit_zero (S := S2048x128) zeros2, View.ld_unit_zero (S := S1x1x1) zeros3, View.readCov_unit_zero (S := S2048x128) _ zeros2, View.readCov_unit_zero (S := S1x1x1) _ zeros3]

end Cert.KernelIdeal.Body

end
-- ==== Proof.KI.Frame.lean ====
/-
  The frame of the kernel's program, with the output array's contents named.

  What the three buffers the body writes hold after each grid point is a recursion on the point (`stAt`): the two
  accumulators restart at the first node chunk of an edge block and otherwise grow by the chunk's products; the
  output cell restarts at a core's first point, grows by the block's sum at an edge block's last chunk, and is
  otherwise left as found. The output window's staging buffer is written back only after a core's last point, so
  between a core's first point and its last the buffer holds what the point before left in it, through the points
  that leave it alone (`before4`). With that the body's four runs give the body obligation at every point, and
  the library's launch theorem gives the run of the whole program.
-/
import proofs.«419940_j22909355557427_1_alg».proof.Proof.KI.Runs

set_option maxRecDepth 16384

noncomputable section

namespace Cert.KernelIdeal.Body

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks the body loads at point `t`, at their literal types: the row endpoints, the column endpoints, the
    weights of the point's edge block, and the point's chunk of node features. -/
abbrev rblk (c : Dev nD) (t : Fin cfg0.N) : Vec F S2048x1 .i32 := iblk m c 0 t
abbrev cblk (c : Dev nD) (t : Fin cfg0.N) : Vec F S2048x1 .i32 := iblk m c 1 t
abbrev vblk (c : Dev nD) (t : Fin cfg0.N) : Vec F S2048x1 .f32 := iblk m c 2 t
abbrev xblk (c : Dev nD) (t : Fin cfg0.N) : Vec F S2048x128 .bf16 := iblk m c 3 t

/-- The output cell and the two accumulators. -/
abbrev St (F : FTy → Type) [FloatOps F] : Type := Vec F S1x1x1 .f32 × Vec F S2048x128 .f32 × Vec F S2048x128 .f32

/-- One point's effect on the three buffers, from what the point before left. -/
def step (c : Dev nD) (t : Fin cfg0.N) (p : St F) : St F :=
  let sR := accR (grid0.coords t) (rblk m c t) (xblk m c t) (if t.val % 49 = 0 then k0_pay4 else p.2.1)
  let sC := accC (grid0.coords t) (cblk m c t) (xblk m c t) (if t.val % 49 = 0 then k0_pay5 else p.2.2)
  let o0 := if t.val % 19159 = 0 then k0_pay3 else p.1
  (if t.val % 49 = 48 then k0_pay2 (vblk m c t) sR sC o0 else o0, sR, sC)

/-- What the three buffers hold after the body at point `n`. -/
def stAt (c : Dev nD) : (n : ℕ) → n < cfg0.N → St F
  | 0, hn => step m c ⟨0, hn⟩ (k0_pay3, k0_pay4, k0_pay5)
  | n + 1, hn => step m c ⟨n + 1, hn⟩ (stAt c n (Nat.lt_of_succ_lt hn))

/-- After the first point the recursion takes what the point before left. -/
theorem stAt_pos (c : Dev nD) (t : Fin cfg0.N) (ht : t.val ≠ 0) :
    stAt m c t.val t.isLt = step m c t (stAt m c (t.val - 1) (Nat.lt_of_le_of_lt (Nat.sub_le _ _) t.isLt)) := by
  obtain ⟨n, hn⟩ := t
  cases n with
  | zero => exact absurd rfl ht
  | succ n => rfl

/-- At a core's first point. -/
theorem stAt_first (c : Dev nD) (t : Fin cfg0.N) (h0 : t.val % 19159 = 0) :
    stAt m c t.val t.isLt = (k0_pay3, accR (grid0.coords t) (rblk m c t) (xblk m c t) k0_pay4,
      accC (grid0.coords t) (cblk m c t) (xblk m c t) k0_pay5) := by
  have h1 : t.val % 49 = 0 := by omega
  have h2 : ¬ t.val % 49 = 48 := by omega
  obtain ⟨n, hn⟩ := t
  cases n with
  | zero => unfold stAt step; dsimp only at h0 h1 h2 ⊢; rw [if_pos h1, if_pos h1, if_pos h0, if_neg h2]
  | succ n => unfold stAt step; dsimp only at h0 h1 h2 ⊢; rw [if_pos h1, if_pos h1, if_pos h0, if_neg h2]

/-- At the first node chunk of a later edge block. -/
theorem stAt_reset (c : Dev nD) (t : Fin cfg0.N) (h0 : ¬ t.val % 19159 = 0) (h1 : t.val % 49 = 0) :
    stAt m c t.val t.isLt = ((stAt m c (t.val - 1) (Nat.lt_of_le_of_lt (Nat.sub_le _ _) t.isLt)).1,
      accR (grid0.coords t) (rblk m c t) (xblk m c t) k0_pay4, accC (grid0.coords t) (cblk m c t) (xblk m c t) k0_pay5) := by
  have h2 : ¬ t.val % 49 = 48 := by omega
  have ht : t.val ≠ 0 := fun h => h0 (by rw [h])
  rw [stAt_pos m c t ht]; unfold step; dsimp only; rw [if_pos h1, if_pos h1, if_neg h0, if_neg h2]

/-- At a middle node chunk. -/
theorem stAt_mid (c : Dev nD) (t : Fin cfg0.N) (h1 : ¬ t.val % 49 = 0) (h2 : ¬ t.val % 49 = 48) :
    stAt m c t.val t.isLt = ((stAt m c (t.val - 1) (Nat.lt_of_le_of_lt (Nat.sub_le _ _) t.isLt)).1,
      accR (grid0.coords t) (rblk m c t) (xblk m c t) (stAt m c (t.val - 1) (Nat.lt_of_le_of_lt (Nat.sub_le _ _) t.isLt)).2.1,
      accC (grid0.coords t) (cblk m c t) (xblk m c t) (stAt m c (t.val - 1) (Nat.lt_of_le_of_lt (Nat.sub_le _ _) t.isLt)).2.2) := by
  have h0 : ¬ t.val % 19159 = 0 := by omega
  have ht : t.val ≠ 0 := fun h => h0 (by rw [h])
  rw [stAt_pos m c t ht]; unfold step; dsimp only; rw [if_neg h1, if_neg h1, if_neg h0, if_neg h2]

/-- At the last node chunk. -/
theorem stAt_last (c : Dev nD) (t : Fin cfg0.N) (h2 : t.val % 49 = 48) :
    stAt m c t.val t.isLt = (k0_pay2 (vblk m c t)
        (accR (grid0.coords t) (rblk m c t) (xblk m c t) (stAt m c (t.val - 1) (Nat.lt_of_le_of_lt (Nat.sub_le _ _) t.isLt)).2.1)
        (accC (grid0.coords t) (cblk m c t) (xblk m c t) (stAt m c (t.val - 1) (Nat.lt_of_le_of_lt (Nat.sub_le _ _) t.isLt)).2.2)
        (stAt m c (t.val - 1) (Nat.lt_of_le_of_lt (Nat.sub_le _ _) t.isLt)).1,
      accR (grid0.coords t) (rblk m c t) (xblk m c t) (stAt m c (t.val - 1) (Nat.lt_of_le_of_lt (Nat.sub_le _ _) t.isLt)).2.1,
      accC (grid0.coords t) (cblk m c t) (xblk m c t) (stAt m c (t.val - 1) (Nat.lt_of_le_of_lt (Nat.sub_le _ _) t.isLt)).2.2) := by
  have h1 : ¬ t.val % 49 = 0 := by omega
  have h0 : ¬ t.val % 19159 = 0 := by omega
  have ht : t.val ≠ 0 := fun h => h0 (by rw [h])
  rw [stAt_pos m c t ht]; unfold step; dsimp only; rw [if_neg h1, if_neg h1, if_neg h0, if_pos h2]

/-- Where the output cell is left alone it holds what the point before left. -/
theorem stAt_idle_fst (c : Dev nD) (t : Fin cfg0.N) (h0 : ¬ t.val % 19159 = 0) (h2 : ¬ t.val % 49 = 48) :
    (stAt m c t.val t.isLt).1 = (stAt m c (t.val - 1) (Nat.lt_of_le_of_lt (Nat.sub_le _ _) t.isLt)).1 := by
  have ht : t.val ≠ 0 := fun h => h0 (by rw [h])
  rw [stAt_pos m c t ht]; unfold step; dsimp only; rw [if_neg h0, if_neg h2]

/-! ## The proof data -/

/-- The invariant between points: before the first point what the launch hands the region; afterwards the two
    accumulators at what the point before left, and the generator register. -/
def PhiS (c : Dev nD) : (n : ℕ) → n ≤ cfg0.N → sProp 𝕄
  | 0, _ => Pipeline.ΦA spec0 c
  | n + 1, hn => iprop(iprop(owns (c : Thread nD τ) scR fullShare ((stAt m c n hn).2.1) ∗ owns (c : Thread nD τ) scC fullShare ((stAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scR fullShare ((stAt m c n hn).2.1) ∗ owns (c : Thread nD τ) scC fullShare ((stAt m c n hn).2.2)) ∗ (∃ r, prngReg c r)) := rfl
theorem PhiS_pos (c : Dev nD) (n : ℕ) (h : n ≤ cfg0.N) (hz : n ≠ 0) :
    PhiS m c n h = iprop(iprop(owns (c : Thread nD τ) scR fullShare ((stAt m c (n - 1) (by omega)).2.1) ∗ owns (c : Thread nD τ) scC fullShare ((stAt m c (n - 1) (by omega)).2.2)) ∗ (∃ r, prngReg c r)) := by
  cases n with
  | zero => exact absurd rfl hz
  | succ n => rfl

/-- The proof data of the pipeline on core `c`: the arrays as the region finds them; after the body each input's
    buffer at its block and the output's at the cell's contents; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (stAt m c t.val t.isLt).1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- BETWEEN A CORE'S FIRST POINT AND ITS LAST the output window's buffer holds what the point before left in the
    cell: the buffer is not written back in between, and a point that leaves it alone hands it on as found. -/
theorem before4 (c : Dev nD) : ∀ (n : ℕ) (hn : n < cfg0.N), ¬ n % 19159 = 0 → ∀ d,
    (dats m 0 c).before 4 ⟨n, hn⟩ d = (stAt m c (n - 1) (Nat.lt_of_le_of_lt (Nat.sub_le _ _) hn)).1 := by
  intro n
  induction n using Nat.strong_induction_on with
  | _ n ih =>
    intro hn h0 d
    have hn0 : n ≠ 0 := fun h => h0 (by rw [h])
    have hfl : (cfg0.win 4).flush ⟨n - 1, Nat.lt_of_le_of_lt (Nat.sub_le _ _) hn⟩ = false := by
      rw [Bool.eq_false_iff]; intro h; have := (flush0_4 _).mp h; dsimp only at this; omega
    rw [(dats m 0 c).before_of_pos 4 ⟨n, hn⟩ hn0 ((cfg0.win 4).fetch_out rfl _), hfl, if_neg Bool.false_ne_true]
    unfold Dat.left
    by_cases hi : cfg0.idle 4 (cfg0.grid.coords ⟨n - 1, Nat.lt_of_le_of_lt (Nat.sub_le _ _) hn⟩) = true
    · rw [hi]; dsimp only
      have hh := (idle4 ⟨n - 1, Nat.lt_of_le_of_lt (Nat.sub_le _ _) hn⟩).mp hi
      dsimp only at hh
      rw [ih (n - 1) (by omega) (Nat.lt_of_le_of_lt (Nat.sub_le _ _) hn) hh.1 d]
      exact (stAt_idle_fst m c ⟨n - 1, Nat.lt_of_le_of_lt (Nat.sub_le _ _) hn⟩ hh.1 hh.2).symm
    · rw [Bool.not_eq_true] at hi
      rw [hi]; dsimp only
      unfold Dat.kept
      rw [Pipeline.fill_of_clip_none (cfg := cfg0) 4 _ (fun _ => rfl) d ((dats m 0 c).after 4 ⟨n - 1, Nat.lt_of_le_of_lt (Nat.sub_le _ _) hn⟩),
        Window.fill_cut, after4]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
/-- Where the body writes the output cell, the obligation asks for the cell's stated contents; -/
theorem leaves4_live (c : Dev nD) (t : Fin cfg0.N) (h : t.val % 19159 = 0 ∨ t.val % 49 = 48) :
    (dats m 0 c).leavesExact 4 t = owns (c : Thread nD τ) (ms4 t) fullShare ((stAt m c t.val t.isLt).1) := by
  have hi : cfg0.idle 4 (grid0.coords t) = false := by
    rw [Bool.eq_false_iff]; intro hh; have := (idle4 t).mp hh; omega
  unfold Dat.leavesExact; rw [show cfg0.grid.coords t = grid0.coords t from rfl, hi, after4]
/-- where it leaves it alone, for the buffer as found. -/
theorem leaves4_idle (c : Dev nD) (t : Fin cfg0.N) (h0 : ¬ t.val % 19159 = 0) (h2 : ¬ t.val % 49 = 48) :
    (dats m 0 c).leavesExact 4 t = iprop(∃ d, owns (c : Thread nD τ) (ms4 t) fullShare ((dats m 0 c).before 4 t d)) := by
  have hi : cfg0.idle 4 (grid0.coords t) = true := (idle4 t).mpr ⟨h0, h2⟩
  have hf : (cfg0.win 4).flush t = false := by
    rw [Bool.eq_false_iff]; intro h; have := (flush0_4 t).mp h; omega
  exact (dats m 0 c).leavesExact_idle 4 t hi hf

set_option maxHeartbeats 1600000 in
/-- The body at any point: by the point's remainders it is one of the four runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, leaves0, leaves1, leaves2, leaves3]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 38318 := lt_of_lt_of_eq t.isLt (show cfg0.N = 38318 from N_0)
  by_cases h0 : t.val % 19159 = 0
  · -- a core's first point
    have h1 : t.val % 49 = 0 := by omega
    have h2 : ¬ t.val % 49 = 48 := by omega
    rw [leaves4_live m c t (.inl h0), stAt_first m c t h0]; dsimp only
    by_cases hz : t.val = 0
    · rw [PhiS_zero m c _ _ hz, PhiA_eq]
      iintro ⟨⟨⟨⟨%ds0, HS0⟩, ⟨%ds1, HS1⟩⟩, Hg⟩, Ho, ⟨%d0, H0⟩, ⟨%d1, H1⟩, ⟨%d2, H2⟩, ⟨%d3, H3⟩, ⟨%d4, H4⟩⟩
      iapply (run_first c (grid0.coords t) _ _ _ _ _ _ _ _ _ _ _ _ _ _ ((hcondOut t).mpr h0) ((hcondAcc t).mpr h1) (fun h => h2 ((hcondSum t).mp h)) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · rw [PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply (run_first c (grid0.coords t) _ _ _ _ _ _ _ _ _ _ _ _ _ _ ((hcondOut t).mpr h0) ((hcondAcc t).mpr h1) (fun h => h2 ((hcondSum t).mp h)) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
  · have hz : t.val ≠ 0 := fun h => h0 (by rw [h])
    rw [PhiS_pos m c _ _ hz]
    by_cases h1 : t.val % 49 = 0
    · -- the first node chunk of a later edge block
      have h2 : ¬ t.val % 49 = 48 := by omega
      rw [leaves4_idle m c t h0 h2, stAt_reset m c t h0 h1]; dsimp only
      iintro ⟨⟨⟨HS0, HS1⟩, Hg⟩, Ho, ⟨%d0, H0⟩, ⟨%d1, H1⟩, ⟨%d2, H2⟩, ⟨%d3, H3⟩, H4⟩
      iapply (run_reset c (grid0.coords t) _ _ _ _ _ _ _ _ (ms4 t) (hs4 t) _ _ _ _ (fun h => h0 ((hcondOut t).mp h)) ((hcondAcc t).mpr h1) (fun h => h2 ((hcondSum t).mp h)) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · by_cases h2 : t.val % 49 = 48
      · -- the last node chunk
        rw [leaves4_live m c t (.inr h2), stAt_last m c t h2]; dsimp only
        simp only [before4 m c t.val t.isLt h0]
        iintro ⟨⟨⟨HS0, HS1⟩, Hg⟩, Ho, ⟨%d0, H0⟩, ⟨%d1, H1⟩, ⟨%d2, H2⟩, ⟨%d3, H3⟩, ⟨%d4, H4⟩⟩
        iapply (run_last c (grid0.coords t) _ _ _ _ _ _ _ _ _ _ _ _ _ _ (fun h => h0 ((hcondOut t).mp h)) (fun h => h1 ((hcondAcc t).mp h)) ((hcondSum t).mpr h2) (iblk m c 0 t) (iblk m c 1 t) (iblk m c 2 t) (iblk m c 3 t) _ _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        isplitl [H3]; · iexact H3
        iexact H4
      · -- a middle node chunk
        rw [leaves4_idle m c t h0 h2, stAt_mid m c t h1 h2]; dsimp only
        iintro ⟨⟨⟨HS0, HS1⟩, Hg⟩, Ho, ⟨%d0, H0⟩, ⟨%d1, H1⟩, ⟨%d2, H2⟩, ⟨%d3, H3⟩, H4⟩
        iapply (run_mid c (grid0.coords t) _ _ _ _ _ _ _ _ (ms4 t) (hs4 t) _ _ _ _ (fun h => h0 ((hcondOut t).mp h)) (fun h => h1 ((hcondAcc t).mp h)) (fun h => h2 ((hcondSum t).mp h)) (iblk m c 0 t) (iblk m c 1 t) (iblk m c 2 t) (iblk m c 3 t) _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        isplitl [H3]; · iexact H3
        iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back what the launch handed over: the accumulators at some
    contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 38318 := N_0; omega)

/-! ## The run and the frame -/

set_option maxRecDepth 65536 in
set_option backward.isDefEq.respectTransparency.types false in
/-- Every weakly fair execution of the program terminates; afterwards every array of the pipeline holds what the
    proof data computes (the output array: the cells written back after each core's last point), and every other
    buffer what the host operations after the region make of that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c w => by unfold Dat.share; dsimp only [dats]; exact ite_self _)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KV.Out.lean ====
/-
  The output array after the run, and the program's result from it.

  The output window's block is cell `c'` of the `2 × 1 × 1` output array during core `c'`'s points, and is written
  back once, after the core's last point: the array ends holding, in cell `c'`, what the output cell held then.
  The host then sums the two cells and divides by the number of edges.
-/
import proofs.«419940_j22909355557427_1_alg».proof.Proof.KI.Frame
import Idealize.ShloMosaic.Lib.ValueIdx
import Idealize.ShloMosaic.Lib.Pipeline.Value
import Idealize.ShloMosaic.Lib.StableHlo.Run

set_option maxRecDepth 16384

noncomputable section

namespace Cert.KernelIdeal.Out

open Idealize.ShloMosaic Idealize.ShloMosaic.TcCoe Idealize.ShloMosaic.ValueIdx Idealize.SL.Sem
open Cert.KernelIdeal Cert.KernelIdeal.Gen Cert.KernelIdeal.GenP Cert.KernelIdeal.Body

variable (m : (ℓ : Loc nD τ sig) → Buf (Elt Ideal) ℓ)

/-- The output array after the run, as an array of extended reals. -/
abbrev outArr (c : Dev nD) : FVec Ideal S2x1x1 .f32 := (dats (F := Ideal) m 0 c).arrAt 4 cfg0.N

/-- The recursion read at equal points is the same, whatever the proofs of the bound. -/
theorem stAt_congr (c : Dev nD) {n n' : ℕ} (e : n = n') (h : n < cfg0.N) (h' : n' < cfg0.N) :
    stAt (F := Ideal) m c n h = stAt (F := Ideal) m c n' h' := by
  subst e; rfl

/-- The last point of the core that owns cell `i` is a point of the grid. -/
theorem cell_lt (i : S2x1x1.Idx) : (i 0).val * 19159 + 19158 < cfg0.N := by
  have h : cfg0.N = 38318 := N_0
  have : (i 0).val < 2 := (i 0).isLt
  omega

/-- The one-cell block has one index. -/
theorem idx1_eq (j j' : S1x1x1.Idx) : j = j' := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _

/-- The whole array after the run, cell by cell: cell `i` holds what the output cell held after the last point
    `19159 · i₀ + 19158` of core `i₀`. -/
def G (c : Dev nD) : FVec Ideal S2x1x1 .f32 :=
  fun i => (stAt (F := Ideal) m c ((i 0).val * 19159 + 19158) (cell_lt i)).1 (ix3 (0 : Fin 1) (0 : Fin 1) (0 : Fin 1))

/-- `G` at a cell, with the core's last point named. -/
theorem G_apply (c : Dev nD) (i : S2x1x1.Idx) (n : ℕ) (hn : n < cfg0.N) (e : (i 0).val * 19159 + 19158 = n) :
    G m c i = (stAt (F := Ideal) m c n hn).1 (ix3 (0 : Fin 1) (0 : Fin 1) (0 : Fin 1)) := by
  unfold G
  rw [stAt_congr m c e (cell_lt i) hn]

/-- What a point that writes back writes is its block of `G`: the point is its core's last, `19159 · q + 19158`
    with `q` the core, and its block is cell `q`. -/
theorem flushed4_eq (c : Dev nD) (t : Fin cfg0.N) (hf : (cfg0.win 4).flush t = true) :
    (dats (F := Ideal) m 0 c).flushed 4 t = ((cfg0.win 4).blk t).view.read (Elt Ideal) (G m c) := by
  have hN : cfg0.N = 38318 := N_0
  have ht : t.val < 38318 := lt_of_lt_of_eq t.isLt hN
  have h1 := (flush0_4 t).mp hf
  funext y
  rw [View.read_apply]
  show (dats (F := Ideal) m 0 c).after 4 t _ = _
  rw [after4, cast_eq]
  have hy : (y 0).val < 1 := (y 0).isLt
  have he : ((((cfg0.win 4).blk t).view.emb y) 0).val = t.val / 19159 % 2 := by
    show (((cfg0.win 4).rect t).emb y 0).val = _
    rw [Pipeline.Window.rect_emb_val, index0_4]
    show t.val / 19159 % 2 * 1 + (y 0).val = _
    omega
  have e : ((((cfg0.win 4).blk t).view.emb y) 0).val * 19159 + 19158 = t.val := by omega
  rw [G_apply m c _ t.val t.isLt e]
  exact congrArg _ (idx1_eq _ _)

/-- An index of the array is in point `t`'s block iff each coordinate is in the block's range on its axis. -/
theorem mem_blk4 (t : Fin cfg0.N) (i : S2x1x1.Idx) :
    i ∈ ((cfg0.win 4).blk t).view.set
      ↔ ∀ a : Fin 3, win0_4.index t a * S1x1x1.size a ≤ (i a).val ∧ (i a).val < win0_4.index t a * S1x1x1.size a + S1x1x1.size a := by
  show i ∈ ((View.whole main_v8).slice (win0_4.rect t)).set ↔ _
  rw [View.set_slice_whole, Rect.mem_set_unit]
  exact Iff.rfl

/-- Cell `i` lies in the block of the last point of core `i₀`, which writes back. -/
theorem cover4 (i : S2x1x1.Idx) :
    ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 1 := (i 2).isLt
  have hx := index0_4 ⟨(i 0).val * 19159 + 19158, cell_lt i⟩
  refine ⟨⟨(i 0).val * 19159 + 19158, cell_lt i⟩, (flush0_4 _).mpr (by show ((i 0).val * 19159 + 19158) % 19159 = 19158; omega), ?_⟩
  rw [mem_blk4]
  intro a
  match a with
  | ⟨0, _⟩ =>
    have h0 : win0_4.index ⟨(i 0).val * 19159 + 19158, cell_lt i⟩ (0 : Fin 3) = ((i 0).val * 19159 + 19158) / 19159 % 2 := congrFun hx 0
    show win0_4.index _ (0 : Fin 3) * 1 ≤ (i 0).val ∧ (i 0).val < win0_4.index _ (0 : Fin 3) * 1 + 1
    omega
  | ⟨1, _⟩ =>
    have h0 : win0_4.index ⟨(i 0).val * 19159 + 19158, cell_lt i⟩ (1 : Fin 3) = 0 := congrFun hx 1
    show win0_4.index _ (1 : Fin 3) * 1 ≤ (i 1).val ∧ (i 1).val < win0_4.index _ (1 : Fin 3) * 1 + 1
    omega
  | ⟨2, _⟩ =>
    have h0 : win0_4.index ⟨(i 0).val * 19159 + 19158, cell_lt i⟩ (2 : Fin 3) = 0 := congrFun hx 2
    show win0_4.index _ (2 : Fin 3) * 1 ≤ (i 2).val ∧ (i 2).val < win0_4.index _ (2 : Fin 3) * 1 + 1
    omega

/-- The array after the run is `G`: the two blocks written back are its two cells. -/
theorem outArr_eq (c : Dev nD) : outArr m c = G m c :=
  (dats (F := Ideal) m 0 c).arrAt_eq_of_cover 4 (G m c) (flushed4_eq m c) cover4

/-- Cell `c'` of the output array ends holding what the output cell held after core `c'`'s last point. -/
theorem outArr_apply (c : Dev nD) (c' : Fin 2) (h : c'.val * 19159 + 19158 < cfg0.N) :
    outArr m c (ix3 c' (0 : Fin 1) (0 : Fin 1))
      = (stAt (F := Ideal) m c (c'.val * 19159 + 19158) h).1 (ix3 (0 : Fin 1) (0 : Fin 1) (0 : Fin 1)) := by
  have e : ((ix3 c' (0 : Fin 1) (0 : Fin 1) : S2x1x1.Idx) 0).val = c'.val := rfl
  rw [outArr_eq m c]
  exact G_apply m c _ _ h (by rw [e])

/-- The program's result buffer after the host operations that follow the region: the sum of the output array's
    cells divided by the number of edges. -/
theorem result_eq (c : Dev nD) :
    Pipeline.afterTail₀ cfgs (dats (F := Ideal) m) 0 (V0 m) [hostOps1] c main_v10
      = Host.divf (F := Ideal) (Host.reduceAdd (outArr m c) (constant S_ .f32 0x00000000#32) reducesTo_S2x1x1_S_d0_1_2 h_S_)
          (constant S_ .f32 0x49C35000#32) := by
  unfold Pipeline.afterTail₀
  show StableHlo.after hostOps1 _ (Proc.devRef .tc main_v10) = _
  simp only [hostOps1]
  after_results
  have hW : Pipeline.withArrays (cfgs 0).spec c (V0 m c) (fun w => (dats (F := Ideal) m 0 c).arrAt w (cfgs 0).N)
      (Proc.devRef .tc main_v8) = outArr m c :=
    Pipeline.withArrays_arr spec0 launch0.win.arr_inj c (V0 m c) _ 4
  rw [hW]

end Cert.KernelIdeal.Out

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.KV.Step.lean ====
/-
  The values the kernel body stores, read at an entry at the extended reals.

  The cleared buffers are zero. An accumulator's new value at `(e, d)` is its old value plus the sum over the
  chunk's 2048 nodes of the one-hot entry — one where edge `e`'s endpoint word is the word of the node's number,
  zero elsewhere — times the node's feature `d`. The output cell's new value is its old value plus the sum over the
  block's edges of the inner product of the two accumulators' rows, times the edge's weight.
-/
import proofs.«419940_j22909355557427_1_alg».proof.Proof.Gen.KernelIdeal.Skeleton
import proofs.«419940_j22909355557427_1_alg».proof.Proof.LibDot
import proofs.«419940_j22909355557427_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.StepVal

open Idealize.ShloMosaic Idealize.ShloMosaic.ValueIdx
open Cert.KernelIdeal Cert.KernelIdeal.Gen

/-! ## Small facts the six readings use -/

/-- Every index of the one-element rank-3 shape is the origin. -/
theorem idx111_eq (j : S1x1x1.Idx) : j = ix3 (0 : Fin 1) (0 : Fin 1) (0 : Fin 1) := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _

/-- The chunk's node-number row at `(0, n)`: the word of the chunk's offset plus `n`. The product and the sum of
    words are the words of the product and the sum. -/
theorem pay6_apply (i : grid0.Coords) (n : Fin 2048) :
    k0_pay6 i (ix2 (0 : Fin 1) n) = BitVec.ofNat 32 ((i 2).val * 2048 + n.val) := by
  unfold k0_pay6
  show IntOp.addi (Scalar.muli (BitVec.ofNat 32 (i 2).val) 2048#32) (iota .tc S1x2048 32 [1] iota_S1x2048_d1_w32 (ix2 (0 : Fin 1) n)) = _
  rw [iota_single_apply]
  show BitVec.ofNat 32 (i 2).val * BitVec.ofNat 32 2048 + BitVec.ofNat 32 n.val = _
  rw [BitVec.ofNat_add, BitVec.ofNat_mul]

/-- A compared pair of words, widened to 32 bits and converted, at the extended reals: one where the two words agree,
    zero elsewhere. -/
theorem onehot_entry (a b : BitVec 32) :
    (FloatOps.sitofp (F := Ideal) .f32 ((IntOp.cmpi .eq a b).setWidth 32) : Ideal .f32) = if a = b then (1 : EReal) else 0 := by
  show ((((IntOp.cmpi .eq a b).setWidth 32).toInt : ℝ) : EReal) = _
  by_cases h : a = b
  · rw [if_pos h]
    have hc : IntOp.cmpi .eq a b = 1#1 := by simp [IntOp.cmpi, h]
    rw [hc]
    have h1 : ((1#1 : BitVec 1).setWidth 32).toInt = 1 := by decide
    rw [h1]; simp
  · rw [if_neg h]
    have hc : IntOp.cmpi .eq a b = 0#1 := by
      show BitVec.ofBool (a == b) = 0#1
      rw [beq_eq_false_iff_ne.mpr h]; rfl
    rw [hc]
    have h0 : ((0#1 : BitVec 1).setWidth 32).toInt = 0 := by decide
    rw [h0]; simp

/-- The one-hot matrix of a column of endpoint words against the chunk's node numbers, at `(e, n)`: the column is
    read in row `e`, the node-number row at `n`, and the narrowing of the format is the identity on extended reals. -/
theorem onehot_apply (i : grid0.Coords) (x : IVec S2048x1 32) (e n : Fin 2048) :
    (truncf .bf16 (sitofp (F := Ideal) .f32 (extui 32 (cmpi .eq (broadcastTo S2048x2048 x broadcasts_S2048x1_S2048x2048)
        (broadcastTo S2048x2048 (k0_pay6 i) broadcasts_S1x2048_S2048x2048)) natLt_1_32)) bitsLt_bf16_f32 : FVec Ideal S2048x2048 .bf16) (ix2 e n)
      = if x (ix2 e (0 : Fin 1)) = BitVec.ofNat 32 ((i 2).val * 2048 + n.val) then (1 : EReal) else 0 := by
  show FloatOps.sitofp (F := Ideal) .f32 ((IntOp.cmpi .eq (broadcastTo S2048x2048 x broadcasts_S2048x1_S2048x2048 (ix2 e n))
    (broadcastTo S2048x2048 (k0_pay6 i) broadcasts_S1x2048_S2048x2048 (ix2 e n))).setWidth 32) = _
  rw [broadcastTo_a1_ab_apply, broadcastTo_1b_ab_apply, pay6_apply]
  exact onehot_entry _ _

/-! ## The six stored values at an entry -/

/-- The cleared output cell is zero. -/
theorem pay3_apply (j : S1x1x1.Idx) : k0_pay3 (F := Ideal) j = 0 := by
  unfold k0_pay3
  exact Ideal.ofBits_zero_f32

/-- The cleared row accumulator is zero. -/
theorem pay4_apply (j : S2048x128.Idx) : k0_pay4 (F := Ideal) j = 0 := by
  unfold k0_pay4
  rw [shapeCast_self]
  exact Ideal.ofBits_zero_f32

/-- The cleared column accumulator is zero. -/
theorem pay5_apply (j : S2048x128.Idx) : k0_pay5 (F := Ideal) j = 0 := by
  unfold k0_pay5
  rw [shapeCast_self]
  exact Ideal.ofBits_zero_f32

/-- The row accumulator after a point, at `(e, d)`. -/
theorem pay8_apply (i : grid0.Coords) (x0 : Vec Ideal S2048x1 .i32) (x3 : Vec Ideal S2048x128 .bf16) (s : Vec Ideal S2048x128 .f32)
    (e : Fin 2048) (d : Fin 128) :
    k0_pay8 (F := Ideal) i x0 x3 s (ix2 e d)
      = s (ix2 e d) + ∑ n : Fin 2048,
          (if x0 (ix2 e (0 : Fin 1)) = BitVec.ofNat 32 ((i 2).val * 2048 + n.val) then (1 : EReal) else 0) * x3 (ix2 n d) := by
  unfold k0_pay8 k0_pay7
  rw [shapeCast_self, shapeCast_self x0, shapeCast_self x3]
  refine (addf_apply _ _ _).trans ?_
  refine congrArg (s (ix2 e d) + ·) ?_
  refine (Cert.LibDot.matmul_zero_apply dot_S2048x2048_S2048x128_S2048x128_1_0_0_1_n_n rfl rfl rfl rfl rfl rfl none _ _ e d).trans ?_
  refine Finset.sum_congr rfl fun n _ => ?_
  refine congrArg (· * x3 (ix2 n d)) ?_
  exact onehot_apply i x0 e n

/-- The column accumulator after a point, at `(e, d)`. -/
theorem pay1_apply (i : grid0.Coords) (x1 : Vec Ideal S2048x1 .i32) (x3 : Vec Ideal S2048x128 .bf16) (s : Vec Ideal S2048x128 .f32)
    (e : Fin 2048) (d : Fin 128) :
    k0_pay1 (F := Ideal) (k0_pay7 x3) (k0_pay9 i x1) s (ix2 e d)
      = s (ix2 e d) + ∑ n : Fin 2048,
          (if x1 (ix2 e (0 : Fin 1)) = BitVec.ofNat 32 ((i 2).val * 2048 + n.val) then (1 : EReal) else 0) * x3 (ix2 n d) := by
  unfold k0_pay1 k0_pay9 k0_pay7
  rw [shapeCast_self, shapeCast_self x1, shapeCast_self x3]
  refine (addf_apply _ _ _).trans ?_
  refine congrArg (s (ix2 e d) + ·) ?_
  refine (Cert.LibDot.matmul_zero_apply dot_S2048x2048_S2048x128_S2048x128_1_0_0_1_n_n rfl rfl rfl rfl rfl rfl none _ _ e d).trans ?_
  refine Finset.sum_congr rfl fun n _ => ?_
  refine congrArg (· * x3 (ix2 n d)) ?_
  exact onehot_apply i x1 e n

/-- The output cell after an edge block's last point. -/
theorem pay2_apply (x2 : Vec Ideal S2048x1 .f32) (sR sC : Vec Ideal S2048x128 .f32) (o : Vec Ideal S1x1x1 .f32) (j : S1x1x1.Idx) :
    k0_pay2 (F := Ideal) x2 sR sC o j
      = o j + ∑ e : Fin 2048, (∑ d : Fin 128, sR (ix2 e d) * sC (ix2 e d)) * x2 (ix2 e (0 : Fin 1)) := by
  obtain rfl := idx111_eq j
  unfold k0_pay2
  refine (addf_apply _ _ _).trans ?_
  refine congrArg₂ (· + ·) ?_ ?_
  · exact congrFun (shapeCast_self o _) _
  -- the two casts of the one-element sum keep its one entry
  refine (shapeCast_apply _ _ (ix3 (0 : Fin 1) (0 : Fin 1) (0 : Fin 1)) (ix2 (0 : Fin 1) (0 : Fin 1)) ?_).trans ?_
  · rw [Shape.rowMajor_val_three, Shape.rowMajor_val_two]; rfl
  refine (shapeCast_apply _ _ (ix2 (0 : Fin 1) (0 : Fin 1)) (ix1 (0 : Fin 1)) ?_).trans ?_
  · rw [Shape.rowMajor_val_two, Shape.rowMajor_val_one]; rfl
  -- the sum over the rows of the column of weighted row products
  refine (multiReduction_add_rows_apply _ _ _ _ (0 : Fin 1)).trans ?_
  refine Finset.sum_congr rfl fun e _ => ?_
  refine (mulf_apply _ _ _).trans ?_
  refine congrArg₂ (· * ·) ?_ ?_
  · refine (shapeCast_a_a1_apply _ _ e 0).trans ?_
    refine (multiReduction_add_cols_apply _ _ _ _ e).trans ?_
    rfl
  · exact congrFun (shapeCast_self x2 _) _

end Cert.KernelIdeal.StepVal

end
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.Spec.lean ====
/-
  The number both programs compute, as one function of the argument arrays.

  With `x : [100000, 128]` the node features, `rows`, `cols : [1600000]` the edge endpoints (32-bit words) and
  `vals : [1600000]` the edge weights, the quadratic form of the sparse matrix is
  `∑ₖ valsₖ · ⟨x[rowsₖ], x[colsₖ]⟩`. The kernel forms it edge by edge, each endpoint's row of `x` selected by
  comparing the endpoint's word with every node number (`rowOf`, `kerVal`); the reference scatters the weighted
  rows `valsₖ · x[colsₖ]` into the rows `rowsₖ` of a matrix and contracts that with `x` (`refVal`). On finite
  data with the column endpoints in range the two are one real number (`kerVal_eq_refVal`): a finite double sum
  taken in two orders, with multiplication distributed over it.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise
import Mathlib.Algebra.BigOperators.Group.Finset.Sigma
import Mathlib.Algebra.BigOperators.Ring.Finset
import Mathlib.Tactic.Ring
import proofs.«419940_j22909355557427_1_alg».proof.Proof.LibBlockSum

noncomputable section

open scoped BigOperators

namespace Cert.Spec

open Idealize.ShloMosaic Idealize.ShloMosaic.ValueIdx

/-! ## Finite sums of reals inside the extended reals -/

/-- The extended real of a finite sum of reals is the sum of the extended reals. -/
theorem coe_sum {α : Type*} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- A real or zero, by a condition, read as an extended real. -/
theorem coe_ite_zero (p : Prop) [Decidable p] (a : ℝ) :
    (if p then (a : EReal) else 0) = ((if p then a else 0 : ℝ) : EReal) := by
  split
  · rfl
  · exact EReal.coe_zero.symm

/-- The real identity: the edges' terms summed, each row endpoint's row picked out by an indicator, is the node
    features contracted with the indicator-scattered weighted rows. Multiplication is distributed over each sum and
    the three sums are taken in the other order. -/
theorem real_sum_swap {ι κ δ : Type*} [Fintype ι] [Fintype κ] [Fintype δ]
    (row : κ → ι → Prop) [∀ k v, Decidable (row k v)] (x : ι → δ → ℝ) (w : κ → ℝ) (col : κ → ι) :
    ∑ k, (∑ d, (∑ v, if row k v then x v d else 0) * x (col k) d) * w k
      = ∑ v, ∑ d, x v d * ∑ k, if row k v then w k * x (col k) d else 0 := by
  have hL : ∀ k, (∑ d, (∑ v, if row k v then x v d else 0) * x (col k) d) * w k
      = ∑ d, ∑ v, if row k v then x v d * (w k * x (col k) d) else 0 := by
    intro k
    rw [Finset.sum_mul]
    refine Finset.sum_congr rfl fun d _ => ?_
    rw [Finset.sum_mul, Finset.sum_mul]
    refine Finset.sum_congr rfl fun v _ => ?_
    split_ifs
    · ring
    · ring
  have hR : ∀ v d, x v d * ∑ k, (if row k v then w k * x (col k) d else 0)
      = ∑ k, if row k v then x v d * (w k * x (col k) d) else 0 := by
    intro v d
    rw [Finset.mul_sum]
    refine Finset.sum_congr rfl fun k _ => ?_
    split_ifs
    · rfl
    · ring
  simp only [hL, hR]
  rw [Finset.sum_comm]
  rw [Finset.sum_comm (s := (Finset.univ : Finset ι))]
  refine Finset.sum_congr rfl fun d _ => ?_
  exact Finset.sum_comm

/-- The same identity among the extended reals, every entry and weight being a real. -/
theorem ereal_sum_swap {ι κ δ : Type*} [Fintype ι] [Fintype κ] [Fintype δ]
    (row : κ → ι → Prop) [∀ k v, Decidable (row k v)] (x : ι → δ → ℝ) (w : κ → ℝ) (col : κ → ι) :
    ∑ k, (∑ d, (∑ v, if row k v then (x v d : EReal) else 0) * (x (col k) d : EReal)) * (w k : EReal)
      = ∑ v, ∑ d, (x v d : EReal) * ∑ k, if row k v then (w k : EReal) * (x (col k) d : EReal) else 0 := by
  have hL : ∑ k, (∑ d, (∑ v, if row k v then (x v d : EReal) else 0) * (x (col k) d : EReal)) * (w k : EReal)
      = ((∑ k, (∑ d, (∑ v, if row k v then x v d else 0) * x (col k) d) * w k : ℝ) : EReal) := by
    simp only [coe_sum, EReal.coe_mul, coe_ite_zero]
  have hR : ∑ v, ∑ d, (x v d : EReal) * ∑ k, (if row k v then (w k : EReal) * (x (col k) d : EReal) else 0)
      = ((∑ v, ∑ d, x v d * ∑ k, (if row k v then w k * x (col k) d else 0) : ℝ) : EReal) := by
    simp only [← EReal.coe_mul, coe_ite_zero, ← coe_sum]
  rw [hL, hR, real_sum_swap]

/-- The node features' shape. -/
abbrev SX : Shape := ⟨2, ![100000, 128]⟩
/-- The edge lists' shape. -/
abbrev SE : Shape := ⟨1, ![1600000]⟩

/-- Feature `d` of the row of `x` that the word `r` names: the sum over the node numbers `v` of `x[v, d]` where
    `r` is the word of `v` (at most one `v` is; none when `r` is no node number, and then the sum is zero). -/
def rowOf (X : FVec Ideal SX .f32) (r : BitVec 32) (d : Fin 128) : EReal :=
  ∑ v : Fin 100000, if r = BitVec.ofNat 32 v.val then X (ix2 v d) else 0

/-- One edge's term: the inner product of its two endpoints' rows, times its weight. -/
def edge (X : FVec Ideal SX .f32) (r c : BitVec 32) (w : EReal) : EReal :=
  (∑ d : Fin 128, rowOf X r d * rowOf X c d) * w

/-- The kernel's total: the sum of the edges' terms. -/
def kerVal (X : FVec Ideal SX .f32) (R C : IVec SE 32) (Vv : FVec Ideal SE .f32) : EReal :=
  ∑ k : Fin 1600000, edge X (R (ix1 k)) (C (ix1 k)) (Vv (ix1 k))

/-- The row a column endpoint's word gathers in the reference: a negative word is first raised by the number of
    nodes, and the result, read signed, is clamped into `[0, 99999]`. -/
def colRow (c : BitVec 32) : Fin 100000 :=
  ⟨min (if c.slt 0#32 then c + 100000#32 else c).toInt.toNat (100000 - 1), by omega⟩

/-- The reference's total: `x` contracted with the matrix whose row `v` is the sum of the weighted rows
    `valsₖ · x[colsₖ]` of the edges whose row endpoint, read signed, is `v`. -/
def refVal (X : FVec Ideal SX .f32) (R C : IVec SE 32) (Vv : FVec Ideal SE .f32) : EReal :=
  ∑ v : Fin 100000, ∑ d : Fin 128, X (ix2 v d) *
    ∑ k : Fin 1600000, if (R (ix1 k)).toInt = (v.val : Int) then Vv (ix1 k) * X (ix2 (colRow (C (ix1 k))) d) else 0

/-! ## The rows the two endpoints' words name -/

/-- A row endpoint's row of `x`: the word names node `v` exactly when, read signed, it is `v`. -/
theorem rowOf_toInt (X : FVec Ideal SX .f32) (r : BitVec 32) (d : Fin 128) :
    rowOf X r d = ∑ v : Fin 100000, if r.toInt = (v.val : Int) then X (ix2 v d) else 0 := by
  unfold rowOf
  refine Finset.sum_congr rfl fun v _ => ?_
  have hv : v.val < 2 ^ 31 := lt_trans v.isLt (by norm_num)
  have h := Cert.LibBlockSum.eq_ofNat_iff_toInt_eq r v.val hv
  by_cases hr : r.toInt = (v.val : Int)
  · rw [if_pos hr, if_pos (h.mpr hr)]
  · rw [if_neg hr, if_neg (fun e => hr (h.mp e))]

/-- A word that, read signed, lies in `[0, 100000)` gathers the row of that number. -/
theorem colRow_val (c : BitVec 32) (h0 : 0 ≤ c.toInt) (h1 : c.toInt < 100000) :
    ((colRow c).val : Int) = c.toInt := by
  have hs : c.slt 0#32 = false := by
    rw [BitVec.slt]
    simp only [BitVec.toInt_zero, decide_eq_false_iff_not, not_lt]
    exact h0
  unfold colRow
  simp only [hs]
  show ((min c.toInt.toNat (100000 - 1) : Nat) : Int) = c.toInt
  omega

/-- A column endpoint's row of `x`, its word in range: the one node the word names is the row the reference gathers. -/
theorem rowOf_col (X : FVec Ideal SX .f32) (c : BitVec 32) (d : Fin 128)
    (h0 : 0 ≤ c.toInt) (h1 : c.toInt < 100000) :
    rowOf X c d = X (ix2 (colRow c) d) := by
  rw [rowOf_toInt]
  have hv := colRow_val c h0 h1
  have hcong : ∀ v : Fin 100000, (if c.toInt = (v.val : Int) then X (ix2 v d) else 0)
      = if colRow c = v then X (ix2 v d) else 0 := by
    intro v
    by_cases hc : colRow c = v
    · rw [if_pos hc, if_pos (by rw [← hc]; exact hv.symm)]
    · rw [if_neg hc, if_neg (fun e => hc (Fin.ext (by omega)))]
  rw [Finset.sum_congr rfl fun v _ => hcong v]
  rw [Finset.sum_ite_eq Finset.univ (colRow c) fun v => X (ix2 v d)]
  rw [if_pos (Finset.mem_univ _)]

/-- ON FINITE DATA WITH THE COLUMN ENDPOINTS IN RANGE THE TWO TOTALS AGREE. -/
theorem kerVal_eq_refVal (X : FVec Ideal SX .f32) (R C : IVec SE 32) (Vv : FVec Ideal SE .f32)
    (hX : ∀ i, ∃ x : ℝ, X i = (x : EReal)) (hV : ∀ i, ∃ v : ℝ, Vv i = (v : EReal))
    (hC : ∀ k : Fin 1600000, 0 ≤ (C (ix1 k)).toInt ∧ (C (ix1 k)).toInt < 100000) :
    kerVal X R C Vv = refVal X R C Vv := by
  choose xr hxr using hX
  choose vr hvr using hV
  have hedge : ∀ k : Fin 1600000, edge X (R (ix1 k)) (C (ix1 k)) (Vv (ix1 k))
      = (∑ d : Fin 128, (∑ v : Fin 100000, if (R (ix1 k)).toInt = (v.val : Int) then ((xr (ix2 v d) : ℝ) : EReal) else 0)
          * ((xr (ix2 (colRow (C (ix1 k))) d) : ℝ) : EReal)) * ((vr (ix1 k) : ℝ) : EReal) := by
    intro k
    have hrow : ∀ d : Fin 128, rowOf X (R (ix1 k)) d * rowOf X (C (ix1 k)) d
        = (∑ v : Fin 100000, if (R (ix1 k)).toInt = (v.val : Int) then ((xr (ix2 v d) : ℝ) : EReal) else 0)
          * ((xr (ix2 (colRow (C (ix1 k))) d) : ℝ) : EReal) := by
      intro d
      rw [rowOf_col X (C (ix1 k)) d (hC k).1 (hC k).2, rowOf_toInt]
      simp only [hxr]
    unfold edge
    rw [Finset.sum_congr rfl fun d _ => hrow d, hvr]
  have href : refVal X R C Vv
      = ∑ v : Fin 100000, ∑ d : Fin 128, ((xr (ix2 v d) : ℝ) : EReal) *
          ∑ k : Fin 1600000, if (R (ix1 k)).toInt = (v.val : Int)
            then ((vr (ix1 k) : ℝ) : EReal) * ((xr (ix2 (colRow (C (ix1 k))) d) : ℝ) : EReal) else 0 := by
    unfold refVal
    simp only [hxr, hvr]
  unfold kerVal
  rw [Finset.sum_congr rfl fun k _ => hedge k, href]
  exact ereal_sum_swap (fun (k : Fin 1600000) (v : Fin 100000) => (R (ix1 k)).toInt = (v.val : Int))
    (fun v d => xr (ix2 v d)) (fun k => vr (ix1 k)) (fun k => colRow (C (ix1 k)))

end Cert.Spec

end
-- ==== Proof.KV.Sum.lean ====
/-
  The kernel's total, block by block, is the sum over the edges.

  The kernel pads the edge lists with 1536 edges of weight zero (endpoints zero) to 782 blocks of 2048 edges, and
  the node features with 352 rows of zeros to 49 chunks of 2048 nodes. An endpoint's row of features is gathered
  chunk by chunk: over the chunks and the chunk's nodes, the one-hot entry — one where the endpoint's word is the
  word of the node's number — times the padded feature (`gat`). An edge block's sum is the sum over its edges of the
  inner product of the two gathered rows times the weight (`blockSum`). Summed over the two cores and each core's
  391 blocks this is `kerVal`: a padded edge contributes its term times zero, a padded node zero times its
  one-hot entry, and the real nodes' one-hot entries are those of `rowOf`.
-/
import proofs.«419940_j22909355557427_1_alg».proof.Proof.Spec
import proofs.«419940_j22909355557427_1_alg».proof.Proof.LibBlockSum

noncomputable section

open scoped BigOperators

namespace Cert.KerSum

open Idealize.ShloMosaic Idealize.ShloMosaic.ValueIdx Cert.Spec

/-- The node features padded with zero rows. -/
def Xp (X : FVec Ideal SX .f32) (ν : ℕ) (d : Fin 128) : EReal := if h : ν < 100000 then X (ix2 ⟨ν, h⟩ d) else 0
/-- An endpoint list padded with zero words. -/
def Rp (R : IVec SE 32) (k : ℕ) : BitVec 32 := if h : k < 1600000 then R (ix1 ⟨k, h⟩) else 0#32
/-- The weights padded with zeros. -/
def Vp (Vv : FVec Ideal SE .f32) (k : ℕ) : EReal := if h : k < 1600000 then Vv (ix1 ⟨k, h⟩) else 0

/-- Feature `d` of the row the word `r` names, gathered chunk by chunk from the padded features. -/
def gat (X : FVec Ideal SX .f32) (r : BitVec 32) (d : Fin 128) : EReal :=
  ∑ j : Fin 49, ∑ n : Fin 2048,
    (if r = BitVec.ofNat 32 (j.val * 2048 + n.val) then (1 : EReal) else 0) * Xp X (j.val * 2048 + n.val) d

/-- The sum of edge block `q` (of the padded edge lists). -/
def blockSum (X : FVec Ideal SX .f32) (R C : IVec SE 32) (Vv : FVec Ideal SE .f32) (q : ℕ) : EReal :=
  ∑ e : Fin 2048, (∑ d : Fin 128, gat X (Rp R (q * 2048 + e.val)) d * gat X (Rp C (q * 2048 + e.val)) d) * Vp Vv (q * 2048 + e.val)

/-! ## Sums over consecutive blocks of natural-number indices, and a tail of zeros -/

/-- A function of the natural numbers summed over `B` blocks of `R` consecutive indices is its sum over the
    first `N = B * R` numbers. -/
theorem sum_blocks_nat {M : Type*} [AddCommMonoid M] {B R N : ℕ} (h : B * R = N) (f : ℕ → M) :
    ∑ t : Fin B, ∑ r : Fin R, f (t.val * R + r.val) = ∑ n : Fin N, f n.val := by
  rw [Cert.LibBlockSum.sum_blocks h (fun n : Fin N => f n.val)]
  refine Finset.sum_congr rfl fun t _ => Finset.sum_congr rfl fun r _ => ?_
  show f (t.val * R + r.val) = f (R * t.val + r.val)
  rw [Nat.mul_comm]

/-- A function of the natural numbers that is zero from `a` on: its sum over the first `N ≥ a` numbers is its sum
    over the first `a`. -/
theorem sum_drop_tail {M : Type*} [AddCommMonoid M] {a N : ℕ} (h : a ≤ N) (f : ℕ → M)
    (hf : ∀ n, a ≤ n → f n = 0) : ∑ n : Fin N, f n.val = ∑ n : Fin a, f n.val := by
  rw [Fin.sum_univ_eq_sum_range f N, Fin.sum_univ_eq_sum_range f a]
  refine (Finset.sum_subset (Finset.range_mono h) fun n _ hn => hf n ?_).symm
  rw [Finset.mem_range, not_lt] at hn
  exact hn

/-! ## The padded arrays at a real index and at a padding index -/

theorem Xp_lt (X : FVec Ideal SX .f32) (ν : Fin 100000) (d : Fin 128) : Xp X ν.val d = X (ix2 ν d) := by
  unfold Xp
  rw [dif_pos ν.isLt]

theorem Xp_ge (X : FVec Ideal SX .f32) (ν : ℕ) (h : 100000 ≤ ν) (d : Fin 128) : Xp X ν d = 0 := by
  unfold Xp
  rw [dif_neg (by omega)]

theorem Rp_lt (R : IVec SE 32) (k : Fin 1600000) : Rp R k.val = R (ix1 k) := by
  unfold Rp
  rw [dif_pos k.isLt]

theorem Vp_lt (Vv : FVec Ideal SE .f32) (k : Fin 1600000) : Vp Vv k.val = Vv (ix1 k) := by
  unfold Vp
  rw [dif_pos k.isLt]

theorem Vp_ge (Vv : FVec Ideal SE .f32) (k : ℕ) (h : 1600000 ≤ k) : Vp Vv k = 0 := by
  unfold Vp
  rw [dif_neg (by omega)]

/-! ## The gathered row is the named row -/

/-- The chunk-by-chunk gather of the padded features is the row the word names: the padding rows are zero, and a
    real row's one-hot entry times its feature is the feature or zero. -/
theorem gat_eq_rowOf (X : FVec Ideal SX .f32) (r : BitVec 32) (d : Fin 128) : gat X r d = rowOf X r d := by
  unfold gat rowOf
  rw [sum_blocks_nat (B := 49) (R := 2048) (N := 100352) (by norm_num)
    (fun ν => (if r = BitVec.ofNat 32 ν then (1 : EReal) else 0) * Xp X ν d)]
  rw [sum_drop_tail (a := 100000) (N := 100352) (by norm_num)
    (fun ν => (if r = BitVec.ofNat 32 ν then (1 : EReal) else 0) * Xp X ν d)
    (fun ν hν => by rw [Xp_ge X ν hν d, mul_zero])]
  refine Finset.sum_congr rfl fun ν _ => ?_
  rw [Xp_lt, Cert.LibBlockSum.ite_one_zero_mul]

/-- THE BLOCKS' SUMS ADD UP TO THE KERNEL'S TOTAL. -/
theorem total_eq (X : FVec Ideal SX .f32) (R C : IVec SE 32) (Vv : FVec Ideal SE .f32) :
    ∑ c : Fin 2, ∑ i : Fin 391, blockSum X R C Vv (c.val * 391 + i.val) = kerVal X R C Vv := by
  unfold kerVal
  rw [sum_blocks_nat (B := 2) (R := 391) (N := 782) (by norm_num) (fun q => blockSum X R C Vv q)]
  unfold blockSum
  rw [sum_blocks_nat (B := 782) (R := 2048) (N := 1601536) (by norm_num)
    (fun k => (∑ d : Fin 128, gat X (Rp R k) d * gat X (Rp C k) d) * Vp Vv k)]
  rw [sum_drop_tail (a := 1600000) (N := 1601536) (by norm_num)
    (fun k => (∑ d : Fin 128, gat X (Rp R k) d * gat X (Rp C k) d) * Vp Vv k)
    (fun k hk => by rw [Vp_ge Vv k hk, mul_zero])]
  refine Finset.sum_congr rfl fun k _ => ?_
  unfold edge
  rw [Rp_lt, Rp_lt, Vp_lt]
  refine congrArg (· * Vv (ix1 k)) (Finset.sum_congr rfl fun d _ => ?_)
  rw [gat_eq_rowOf, gat_eq_rowOf]

end Cert.KerSum

end
-- ==== Proof.KV.Blocks.lean ====
/-
  The blocks the kernel body loads, entry by entry, as entries of the padded argument arrays.

  Before the kernel runs, the host pads the two endpoint lists and the weights to 1601536 entries (zeros after the
  first 1600000) and views each as a column, and pads the node features to 100352 rows (zero rows after the first
  100000). At grid point `t` the three edge windows hold rows `2048·(t / 49) …` of their columns — the edge block
  is the same for the 49 node chunks of one block — and the feature window holds rows `2048·(t mod 49) …`.
-/
import proofs.«419940_j22909355557427_1_alg».proof.Proof.KI.Frame
import proofs.«419940_j22909355557427_1_alg».proof.Proof.KV.Sum
import proofs.«419940_j22909355557427_1_alg».proof.Proof.LibKeepdims
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.GenP Cert.KernelIdeal.Body Cert.KerSum

variable (m : (ℓ : Loc nD τ sig) → Buf (Elt Ideal) ℓ)

/-! ## The windows' block indices -/

/-- The edge block's number as the index maps compute it in 32-bit words: core times 391 plus the block within the
    core, with no wrap. -/
theorem toNat_block (a b : ℕ) (ha : a < 2) (hb : b < 391) :
    (Scalar.addi (Scalar.muli (BitVec.ofNat 32 a) 391#32) (BitVec.ofNat 32 b)).toNat = a * 391 + b := by
  unfold Scalar.addi Scalar.muli IntOp.addi IntOp.muli
  rw [BitVec.toNat_add, BitVec.toNat_mul, BitVec.toNat_ofNat, BitVec.toNat_ofNat, BitVec.toNat_ofNat]
  have h1 : a % 2 ^ 32 = a := Nat.mod_eq_of_lt (by omega)
  have h2 : b % 2 ^ 32 = b := Nat.mod_eq_of_lt (by omega)
  have h3 : 391 % 2 ^ 32 = 391 := by norm_num
  rw [h1, h2, h3]
  have h4 : a * 391 % 2 ^ 32 = a * 391 := Nat.mod_eq_of_lt (by omega)
  rw [h4]
  exact Nat.mod_eq_of_lt (by omega)

/-- The core times 391 plus the edge block within the core is the point's number divided by 49. -/
theorem block_of_point (t : ℕ) (ht : t < 38318) : t / 19159 % 2 * 391 + t / 49 % 391 = t / 49 := by omega

/-- Window 0's block index at point `t`: the edge block `t / 49`. -/
theorem index0 (t : Fin cfg0.N) : win0_0.index t = ![t.val / 49, 0] := by
  have hN : t.val < 38318 := lt_of_lt_of_eq t.isLt (show cfg0.N = 38318 from N_0)
  show cc0_transform_0 (grid0.coords t) = _
  unfold cc0_transform_0
  dsimp only
  rw [coords0, coords1, toNat_block _ _ (by omega) (by omega), block_of_point _ hN]
  rfl

/-- Window 1's block index at point `t`: the edge block `t / 49`. -/
theorem index1 (t : Fin cfg0.N) : win0_1.index t = ![t.val / 49, 0] := by
  have hN : t.val < 38318 := lt_of_lt_of_eq t.isLt (show cfg0.N = 38318 from N_0)
  show cc0_transform_1 (grid0.coords t) = _
  unfold cc0_transform_1
  dsimp only
  rw [coords0, coords1, toNat_block _ _ (by omega) (by omega), block_of_point _ hN]
  rfl

/-- Window 2's block index at point `t`: the edge block `t / 49`. -/
theorem index2 (t : Fin cfg0.N) : win0_2.index t = ![t.val / 49, 0] := by
  have hN : t.val < 38318 := lt_of_lt_of_eq t.isLt (show cfg0.N = 38318 from N_0)
  show cc0_transform_2 (grid0.coords t) = _
  unfold cc0_transform_2
  dsimp only
  rw [coords0, coords1, toNat_block _ _ (by omega) (by omega), block_of_point _ hN]
  rfl

/-- Window 3's block index at point `t`: the node chunk `t mod 49`. -/
theorem index3 (t : Fin cfg0.N) : win0_3.index t = ![t.val % 49, 0] := by
  show cc0_transform_3 (grid0.coords t) = _
  unfold cc0_transform_3
  dsimp only
  rw [coords2, BitVec.toNat_ofNat, Nat.mod_eq_of_lt (by omega : t.val % 49 < 2 ^ 32)]
  rfl

/-! ## A block's entry is its array's entry -/

theorem rblk_arr (c : Dev nD) (t : Fin cfg0.N) (e : Fin 2048) (h : t.val / 49 * 2048 + e.val < 1601536) :
    rblk (F := Ideal) m c t (ix2 e (0 : Fin 1))
      = (V m c main_v5 : S1601536x1.Idx → BitVec 32) (ix2 ⟨t.val / 49 * 2048 + e.val, h⟩ (0 : Fin 1)) := by
  show (V m c main_v5 : S1601536x1.Idx → BitVec 32) (((cfg0.win 0).blk t).view.emb (ix2 e (0 : Fin 1))) = _
  refine congrArg _ (funext fun a => Fin.ext ?_)
  have h0 : win0_0.index t (0 : Fin 2) = t.val / 49 := by rw [index0]; rfl
  have h1 : win0_0.index t (1 : Fin 2) = 0 := by rw [index0]; rfl
  match a with
  | ⟨0, _⟩ =>
    show win0_0.index t (0 : Fin 2) * 2048 + 1 * e.val = t.val / 49 * 2048 + e.val
    rw [h0]; omega
  | ⟨1, _⟩ =>
    show win0_0.index t (1 : Fin 2) * 1 + 1 * 0 = 0
    rw [h1]

theorem cblk_arr (c : Dev nD) (t : Fin cfg0.N) (e : Fin 2048) (h : t.val / 49 * 2048 + e.val < 1601536) :
    cblk (F := Ideal) m c t (ix2 e (0 : Fin 1))
      = (V m c main_v6 : S1601536x1.Idx → BitVec 32) (ix2 ⟨t.val / 49 * 2048 + e.val, h⟩ (0 : Fin 1)) := by
  show (V m c main_v6 : S1601536x1.Idx → BitVec 32) (((cfg0.win 1).blk t).view.emb (ix2 e (0 : Fin 1))) = _
  refine congrArg _ (funext fun a => Fin.ext ?_)
  have h0 : win0_1.index t (0 : Fin 2) = t.val / 49 := by rw [index1]; rfl
  have h1 : win0_1.index t (1 : Fin 2) = 0 := by rw [index1]; rfl
  match a with
  | ⟨0, _⟩ =>
    show win0_1.index t (0 : Fin 2) * 2048 + 1 * e.val = t.val / 49 * 2048 + e.val
    rw [h0]; omega
  | ⟨1, _⟩ =>
    show win0_1.index t (1 : Fin 2) * 1 + 1 * 0 = 0
    rw [h1]

theorem vblk_arr (c : Dev nD) (t : Fin cfg0.N) (e : Fin 2048) (h : t.val / 49 * 2048 + e.val < 1601536) :
    vblk (F := Ideal) m c t (ix2 e (0 : Fin 1))
      = (V m c main_v7 : S1601536x1.Idx → EReal) (ix2 ⟨t.val / 49 * 2048 + e.val, h⟩ (0 : Fin 1)) := by
  show (V m c main_v7 : S1601536x1.Idx → EReal) (((cfg0.win 2).blk t).view.emb (ix2 e (0 : Fin 1))) = _
  refine congrArg _ (funext fun a => Fin.ext ?_)
  have h0 : win0_2.index t (0 : Fin 2) = t.val / 49 := by rw [index2]; rfl
  have h1 : win0_2.index t (1 : Fin 2) = 0 := by rw [index2]; rfl
  match a with
  | ⟨0, _⟩ =>
    show win0_2.index t (0 : Fin 2) * 2048 + 1 * e.val = t.val / 49 * 2048 + e.val
    rw [h0]; omega
  | ⟨1, _⟩ =>
    show win0_2.index t (1 : Fin 2) * 1 + 1 * 0 = 0
    rw [h1]

theorem xblk_arr (c : Dev nD) (t : Fin cfg0.N) (n : Fin 2048) (d : Fin 128) (h : t.val % 49 * 2048 + n.val < 100352) :
    xblk (F := Ideal) m c t (ix2 n d)
      = (V m c main_v4 : S100352x128.Idx → EReal) (ix2 ⟨t.val % 49 * 2048 + n.val, h⟩ d) := by
  show (V m c main_v4 : S100352x128.Idx → EReal) (((cfg0.win 3).blk t).view.emb (ix2 n d)) = _
  refine congrArg _ (funext fun a => Fin.ext ?_)
  have h0 : win0_3.index t (0 : Fin 2) = t.val % 49 := by rw [index3]; rfl
  have h1 : win0_3.index t (1 : Fin 2) = 0 := by rw [index3]; rfl
  match a with
  | ⟨0, _⟩ =>
    show win0_3.index t (0 : Fin 2) * 2048 + 1 * n.val = t.val % 49 * 2048 + n.val
    rw [h0]; omega
  | ⟨1, _⟩ =>
    show win0_3.index t (1 : Fin 2) * 128 + 1 * d.val = d.val
    rw [h1]; omega

/-! ## The arrays as the region finds them: the host's pads and column views of the arguments -/

theorem V5_eq (c : Dev nD) :
    (V m c main_v5 : S1601536x1.Idx → BitVec 32)
      = shapeCast S1601536x1 (pad S1601536 ![0] ![1536] ![0] (m ((c : Thread nD τ).loc main_arg1) : S1600000.Idx → BitVec 32) (constantI S_ 32 0#32) pads_S1600000_S1601536_015360 h_S_) shapeCasts_S1601536_S1601536x1 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem V6_eq (c : Dev nD) :
    (V m c main_v6 : S1601536x1.Idx → BitVec 32)
      = shapeCast S1601536x1 (pad S1601536 ![0] ![1536] ![0] (m ((c : Thread nD τ).loc main_arg2) : S1600000.Idx → BitVec 32) (constantI S_ 32 0#32) pads_S1600000_S1601536_015360 h_S_) shapeCasts_S1601536_S1601536x1 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem V7_eq (c : Dev nD) :
    (V m c main_v7 : S1601536x1.Idx → EReal)
      = shapeCast S1601536x1 (pad S1601536 ![0] ![1536] ![0] (m ((c : Thread nD τ).loc main_arg3) : S1600000.Idx → EReal) (sitofp (F := Ideal) .f32 (constantI S_ 32 0#32)) pads_S1600000_S1601536_015360 h_S_) shapeCasts_S1601536_S1601536x1 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem V4_eq (c : Dev nD) :
    (V m c main_v4 : S100352x128.Idx → EReal)
      = truncf (F := Ideal) .bf16 (pad S100352x128 ![0, 0] ![352, 0] ![0, 0] (m ((c : Thread nD τ).loc main_arg0) : S100000x128.Idx → EReal) (sitofp (F := Ideal) .f32 (constantI S_ 32 0#32)) pads_S100000x128_S100352x128_03520_000 h_S_ : FVec Ideal S100352x128 .f32) bitsLt_bf16_f32 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-! ## A pad read at an index -/

/-- A one-axis pad with no low and no interior padding: inside the operand its entry, beyond it the padding value. -/
theorem pad1_apply {α : Type} {n p N : ℕ} (x : (⟨1, ![n]⟩ : Shape).Idx → α) (v : S_.Idx → α)
    (h : (⟨1, ![n]⟩ : Shape).Pads (![0] : Fin 1 → Nat) ![p] ![0] ⟨1, ![N]⟩) (hu : 0 < S_.numel) (k : Fin N) :
    pad ⟨1, ![N]⟩ ![0] ![p] ![0] x v h hu (ix1 k) = if hk : k.val < n then x (ix1 ⟨k.val, hk⟩) else v (Shape.Idx.first hu) := by
  by_cases hk : k.val < n
  · rw [dif_pos hk]
    refine pad_apply_of_inside _ _ _ x v h hu (ix1 k) (ix1 ⟨k.val, hk⟩) (fun a => ?_)
    match a with
    | ⟨0, _⟩ => show k.val = 0 + k.val * (0 + 1); omega
  · rw [dif_neg hk]
    refine pad_apply_of_not_inside _ _ _ x v h hu (ix1 k) (0 : Fin 1) ?_
    show ¬ (0 ≤ k.val ∧ (k.val - 0) % (0 + 1) = 0 ∧ (k.val - 0) / (0 + 1) < n)
    rw [Nat.sub_zero, Nat.zero_add, Nat.div_one]
    exact fun hh => hk hh.2.2

/-- A two-axis pad of high rows only: inside the operand its entry, in the added rows the padding value. -/
theorem pad2_apply {α : Type} {n p N b : ℕ} (x : (⟨2, ![n, b]⟩ : Shape).Idx → α) (v : S_.Idx → α)
    (h : (⟨2, ![n, b]⟩ : Shape).Pads (![0, 0] : Fin 2 → Nat) ![p, 0] ![0, 0] ⟨2, ![N, b]⟩) (hu : 0 < S_.numel) (k : Fin N) (d : Fin b) :
    pad ⟨2, ![N, b]⟩ ![0, 0] ![p, 0] ![0, 0] x v h hu (ix2 k d) = if hk : k.val < n then x (ix2 ⟨k.val, hk⟩ d) else v (Shape.Idx.first hu) := by
  by_cases hk : k.val < n
  · rw [dif_pos hk]
    refine pad_apply_of_inside _ _ _ x v h hu (ix2 k d) (ix2 ⟨k.val, hk⟩ d) (fun a => ?_)
    match a with
    | ⟨0, _⟩ => show k.val = 0 + k.val * (0 + 1); omega
    | ⟨1, _⟩ => show d.val = 0 + d.val * (0 + 1); omega
  · rw [dif_neg hk]
    refine pad_apply_of_not_inside _ _ _ x v h hu (ix2 k d) (0 : Fin 2) ?_
    show ¬ (0 ≤ k.val ∧ (k.val - 0) % (0 + 1) = 0 ∧ (k.val - 0) / (0 + 1) < n)
    rw [Nat.sub_zero, Nat.zero_add, Nat.div_one]
    exact fun hh => hk hh.2.2

/-- The float padding value: the integer zero converted is the real zero. -/
theorem sitofp_zero (i : S_.Idx) : sitofp (F := Ideal) .f32 (constantI S_ 32 0#32) i = (0 : EReal) := by
  show (((0#32 : BitVec 32).toInt : ℝ) : EReal) = 0
  rw [BitVec.toInt_zero, Int.cast_zero, EReal.coe_zero]

/-! ## The blocks' entries -/

/-- The row endpoints of point `t`'s edge block. -/
theorem rblk_apply (c : Dev nD) (t : Fin cfg0.N) (e : Fin 2048) :
    rblk (F := Ideal) m c t (ix2 e (0 : Fin 1)) = Rp (m ((c : Thread nD τ).loc main_arg1)) (t.val / 49 * 2048 + e.val) := by
  have hN : t.val < 38318 := lt_of_lt_of_eq t.isLt (show cfg0.N = 38318 from N_0)
  have h : t.val / 49 * 2048 + e.val < 1601536 := by have := e.isLt; omega
  refine (rblk_arr m c t e h).trans ?_
  refine (congrFun (V5_eq m c) _).trans ?_
  refine (shapeCast_a_a1_apply _ _ _ _).trans ?_
  refine (pad1_apply _ _ _ _ _).trans ?_
  rfl

/-- The column endpoints of point `t`'s edge block. -/
theorem cblk_apply (c : Dev nD) (t : Fin cfg0.N) (e : Fin 2048) :
    cblk (F := Ideal) m c t (ix2 e (0 : Fin 1)) = Rp (m ((c : Thread nD τ).loc main_arg2)) (t.val / 49 * 2048 + e.val) := by
  have hN : t.val < 38318 := lt_of_lt_of_eq t.isLt (show cfg0.N = 38318 from N_0)
  have h : t.val / 49 * 2048 + e.val < 1601536 := by have := e.isLt; omega
  refine (cblk_arr m c t e h).trans ?_
  refine (congrFun (V6_eq m c) _).trans ?_
  refine (shapeCast_a_a1_apply _ _ _ _).trans ?_
  refine (pad1_apply _ _ _ _ _).trans ?_
  rfl

/-- The weights of point `t`'s edge block. -/
theorem vblk_apply (c : Dev nD) (t : Fin cfg0.N) (e : Fin 2048) :
    vblk (F := Ideal) m c t (ix2 e (0 : Fin 1)) = Vp (m ((c : Thread nD τ).loc main_arg3)) (t.val / 49 * 2048 + e.val) := by
  have hN : t.val < 38318 := lt_of_lt_of_eq t.isLt (show cfg0.N = 38318 from N_0)
  have h : t.val / 49 * 2048 + e.val < 1601536 := by have := e.isLt; omega
  refine (vblk_arr m c t e h).trans ?_
  refine (congrFun (V7_eq m c) _).trans ?_
  refine (shapeCast_a_a1_apply _ _ _ _).trans ?_
  refine (pad1_apply _ _ _ _ _).trans ?_
  unfold Vp
  by_cases hk : t.val / 49 * 2048 + e.val < 1600000
  · rw [dif_pos hk, dif_pos hk]
  · rw [dif_neg hk, dif_neg hk, sitofp_zero]

/-- Point `t`'s chunk of node features. -/
theorem xblk_apply (c : Dev nD) (t : Fin cfg0.N) (n : Fin 2048) (d : Fin 128) :
    xblk (F := Ideal) m c t (ix2 n d) = Xp (m ((c : Thread nD τ).loc main_arg0)) (t.val % 49 * 2048 + n.val) d := by
  have h : t.val % 49 * 2048 + n.val < 100352 := by have := n.isLt; omega
  refine (xblk_arr m c t n d h).trans ?_
  refine (congrFun (V4_eq m c) _).trans ?_
  show pad S100352x128 ![0, 0] ![352, 0] ![0, 0] (m ((c : Thread nD τ).loc main_arg0) : S100000x128.Idx → EReal) (sitofp (F := Ideal) .f32 (constantI S_ 32 0#32)) pads_S100000x128_S100352x128_03520_000 h_S_ (ix2 ⟨t.val % 49 * 2048 + n.val, h⟩ d) = _
  refine (pad2_apply _ _ _ _ _ _).trans ?_
  unfold Xp
  by_cases hk : t.val % 49 * 2048 + n.val < 100000
  · rw [dif_pos hk, dif_pos hk]
  · rw [dif_neg hk, dif_neg hk, sitofp_zero]

end Cert.KernelIdeal.Blocks

end
-- ==== Proof.LibAcc.lean ====
import Mathlib.Algebra.BigOperators.Fin

/-!
# An accumulator that is reset at the start of each stretch

The points `0, 1, …, B * T - 1` fall into `B` stretches of `T` consecutive points.  An accumulator that
holds the point's term at the first point of a stretch, and at every other point what the point before left
plus the point's term, holds at point `i` of stretch `b` the sum of the terms of the points `0, …, i` of that
stretch; at the stretch's last point, the sum over the whole stretch.
-/

namespace Cert.LibAcc

/-- Point `k` of stretch `b` is a point. -/
theorem idx_lt {T B : ℕ} (b : Fin B) {k : ℕ} (hk : k < T) : b.val * T + k < B * T :=
  calc b.val * T + k < b.val * T + T := Nat.add_lt_add_left hk _
    _ = (b.val + 1) * T := (Nat.succ_mul _ _).symm
    _ ≤ B * T := Nat.mul_le_mul_right T b.isLt

/-- Point `k` of a stretch has remainder `k`. -/
theorem mod_eq (b T k : ℕ) (hk : k < T) : (b * T + k) % T = k := by
  rw [Nat.add_comm, Nat.add_mul_mod_self_right, Nat.mod_eq_of_lt hk]

section
variable {M : Type} [AddCommMonoid M] (T B : ℕ) (acc s : (n : ℕ) → n < B * T → M)

/-- The accumulator at equal points. -/
theorem acc_congr {n n' : ℕ} (e : n = n') (h : n < B * T) (h' : n' < B * T) : acc n h = acc n' h' := by
  subst e; rfl

variable (hreset : ∀ n (hn : n < B * T), n % T = 0 → acc n hn = s n hn)
  (hstep : ∀ n (hn : n < B * T) (h : n % T ≠ 0), acc n hn = acc (n - 1) (by omega) + s n hn)

include hreset hstep in
/-- At point `k` of stretch `b` the accumulator holds the sum of the stretch's terms up to `k`. -/
theorem acc_prefix (b : Fin B) : ∀ (k : ℕ) (hk : k < T),
    acc (b.val * T + k) (idx_lt b hk)
      = ∑ i' : Fin (k + 1), s (b.val * T + i'.val) (idx_lt b (Nat.lt_of_lt_of_le i'.isLt hk))
  | 0, hk => by
    rw [Fin.sum_univ_one]
    exact hreset _ _ (mod_eq b.val T 0 hk)
  | k + 1, hk => by
    rw [Fin.sum_univ_castSucc]
    have hmod : (b.val * T + (k + 1)) % T ≠ 0 := by rw [mod_eq b.val T (k + 1) hk]; omega
    rw [hstep _ _ hmod]
    refine congrArg₂ (· + ·) ?_ rfl
    exact (acc_congr T B acc (by omega) _ (idx_lt b (Nat.lt_of_succ_lt hk))).trans
      (acc_prefix b k (Nat.lt_of_succ_lt hk))

include hreset hstep in
/-- The same over the points of a stretch as `Fin T`. -/
theorem acc_stretch (b : Fin B) (i : Fin T) :
    acc (b.val * T + i.val) (idx_lt b i.isLt)
      = ∑ i' : Fin (i.val + 1), s (b.val * T + i'.val) (idx_lt b (Nat.lt_of_lt_of_le i'.isLt i.isLt)) :=
  acc_prefix T B acc s hreset hstep b i.val i.isLt

include hreset hstep in
/-- At the last point of a stretch the accumulator holds the stretch's sum. -/
theorem acc_last (hT : 0 < T) (b : Fin B) :
    acc (b.val * T + (T - 1)) (idx_lt b (by omega)) = ∑ i : Fin T, s (b.val * T + i.val) (idx_lt b i.isLt) := by
  cases T with
  | zero => omega
  | succ T' => exact acc_prefix (T' + 1) B acc s hreset hstep b T' (Nat.lt_succ_self T')

end

section
variable {M : Type} [AddCommMonoid M] (T B : ℕ) (acc s : (n : ℕ) → n < B * T → M) (z : M) (hz : z = 0)
  (hreset : ∀ n (hn : n < B * T), n % T = 0 → acc n hn = z + s n hn)
  (hstep : ∀ n (hn : n < B * T) (h : n % T ≠ 0), acc n hn = acc (n - 1) (by omega) + s n hn)

include hz hreset hstep in
/-- The same when the first point of a stretch adds its term to a zero. -/
theorem acc_stretch_zero (b : Fin B) (i : Fin T) :
    acc (b.val * T + i.val) (idx_lt b i.isLt)
      = ∑ i' : Fin (i.val + 1), s (b.val * T + i'.val) (idx_lt b (Nat.lt_of_lt_of_le i'.isLt i.isLt)) :=
  acc_stretch T B acc s (fun n hn h => by rw [hreset n hn h, hz, zero_add]) hstep b i

include hz hreset hstep in
theorem acc_last_zero (hT : 0 < T) (b : Fin B) :
    acc (b.val * T + (T - 1)) (idx_lt b (by omega)) = ∑ i : Fin T, s (b.val * T + i.val) (idx_lt b i.isLt) :=
  acc_last T B acc s (fun n hn h => by rw [hreset n hn h, hz, zero_add]) hstep hT b

end

end Cert.LibAcc
-- ==== Proof.KV.Accum.lean ====
/-
  What the output cell holds after a core's last point: the sum of the core's 391 edge blocks' sums.

  Within an edge block the two accumulators restart at the first node chunk and take one chunk's products per
  point, so after the last chunk they hold, at `(e, d)`, feature `d` of the rows that edge `e`'s endpoints name,
  gathered over all 49 chunks. The output cell restarts at the core's first point and takes one block's sum at each
  block's last chunk, so after the core's last point it holds the sum over the core's blocks.
-/
import proofs.«419940_j22909355557427_1_alg».proof.Proof.KI.Frame
import proofs.«419940_j22909355557427_1_alg».proof.Proof.KV.Step
import proofs.«419940_j22909355557427_1_alg».proof.Proof.KV.Blocks
import proofs.«419940_j22909355557427_1_alg».proof.Proof.KV.Sum
import proofs.«419940_j22909355557427_1_alg».proof.Proof.LibAcc

set_option maxRecDepth 16384

noncomputable section

open scoped BigOperators

namespace Cert.KernelIdeal.Accum

open Idealize.ShloMosaic Idealize.ShloMosaic.TcCoe Idealize.ShloMosaic.ValueIdx Idealize.SL.Sem
open Cert.KernelIdeal Cert.KernelIdeal.Gen Cert.KernelIdeal.GenP Cert.KernelIdeal.Body Cert.KerSum

variable (m : (ℓ : Loc nD τ sig) → Buf (Elt Ideal) ℓ)

section Points

open Cert.KernelIdeal.StepVal Cert.KernelIdeal.Blocks Cert.Spec

variable (c : Dev nD)

set_option quotPrecheck false in
local notation "aX" => m ((c : Thread nD τ).loc main_arg0)
set_option quotPrecheck false in
local notation "aR" => m ((c : Thread nD τ).loc main_arg1)
set_option quotPrecheck false in
local notation "aC" => m ((c : Thread nD τ).loc main_arg2)
set_option quotPrecheck false in
local notation "aV" => m ((c : Thread nD τ).loc main_arg3)

/-- The grid has `782 * 49` points. -/
theorem N_eq : 782 * 49 = cfg0.N := by
  rw [show cfg0.N = 38318 from N_0]

/-- The three buffers at equal points. -/
theorem stAt_congr {n n' : ℕ} (e : n = n') (h : n < cfg0.N) (h' : n' < cfg0.N) :
    stAt (F := Ideal) m c n h = stAt m c n' h' := by
  subst e; rfl

/-- One node chunk's part of a gathered row: over the chunk's nodes, the one-hot entry times the padded feature. -/
def term (X : FVec Ideal SX .f32) (r : BitVec 32) (j : ℕ) (d : Fin 128) : EReal :=
  ∑ k : Fin 2048, (if r = BitVec.ofNat 32 (j * 2048 + k.val) then (1 : EReal) else 0) * Xp X (j * 2048 + k.val) d

/-- The gathered row is the sum of the 49 chunks' parts. -/
theorem gat_eq_sum_term (X : FVec Ideal SX .f32) (r : BitVec 32) (d : Fin 128) :
    gat X r d = ∑ j : Fin 49, term X r j.val d := rfl

/-- The row accumulator after point `t`, from what it held: one chunk's part more. -/
theorem rowR_at (t : Fin cfg0.N) (s : Vec Ideal S2048x128 .f32) (e : Fin 2048) (d : Fin 128) :
    accR (grid0.coords t) (rblk m c t) (xblk m c t) s (ix2 e d)
      = s (ix2 e d) + term aX (Rp aR (t.val / 49 * 2048 + e.val)) (t.val % 49) d := by
  refine (pay8_apply _ _ _ _ e d).trans ?_
  rw [rblk_apply, coords2]
  unfold term
  refine congrArg (s (ix2 e d) + ·) (Finset.sum_congr rfl fun k _ => ?_)
  rw [xblk_apply]

/-- The column accumulator after point `t`, from what it held: one chunk's part more. -/
theorem rowC_at (t : Fin cfg0.N) (s : Vec Ideal S2048x128 .f32) (e : Fin 2048) (d : Fin 128) :
    accC (grid0.coords t) (cblk m c t) (xblk m c t) s (ix2 e d)
      = s (ix2 e d) + term aX (Rp aC (t.val / 49 * 2048 + e.val)) (t.val % 49) d := by
  refine (pay1_apply _ _ _ _ e d).trans ?_
  rw [cblk_apply, coords2]
  unfold term
  refine congrArg (s (ix2 e d) + ·) (Finset.sum_congr rfl fun k _ => ?_)
  rw [xblk_apply]

/-- At the first node chunk of an edge block the row accumulator restarts: a zero plus the chunk's part. -/
theorem accR_reset (n : ℕ) (hn : n < cfg0.N) (h1 : n % 49 = 0) (e : Fin 2048) (d : Fin 128) :
    (stAt (F := Ideal) m c n hn).2.1 (ix2 e d) = 0 + term aX (Rp aR (n / 49 * 2048 + e.val)) (n % 49) d := by
  by_cases h0 : n % 19159 = 0
  · rw [show stAt (F := Ideal) m c n hn = _ from stAt_first m c ⟨n, hn⟩ h0]
    refine (rowR_at m c ⟨n, hn⟩ _ e d).trans ?_
    rw [pay4_apply]
  · rw [show stAt (F := Ideal) m c n hn = _ from stAt_reset m c ⟨n, hn⟩ h0 h1]
    refine (rowR_at m c ⟨n, hn⟩ _ e d).trans ?_
    rw [pay4_apply]

/-- At every other node chunk it holds what the point before left plus the chunk's part. -/
theorem accR_step (n : ℕ) (hn : n < cfg0.N) (h1 : n % 49 ≠ 0) (e : Fin 2048) (d : Fin 128) :
    (stAt (F := Ideal) m c n hn).2.1 (ix2 e d)
      = (stAt (F := Ideal) m c (n - 1) (Nat.lt_of_le_of_lt (Nat.sub_le _ _) hn)).2.1 (ix2 e d)
        + term aX (Rp aR (n / 49 * 2048 + e.val)) (n % 49) d := by
  by_cases h2 : n % 49 = 48
  · rw [show stAt (F := Ideal) m c n hn = _ from stAt_last m c ⟨n, hn⟩ h2]
    exact rowR_at m c ⟨n, hn⟩ _ e d
  · rw [show stAt (F := Ideal) m c n hn = _ from stAt_mid m c ⟨n, hn⟩ h1 h2]
    exact rowR_at m c ⟨n, hn⟩ _ e d

/-- The same for the column accumulator. -/
theorem accC_reset (n : ℕ) (hn : n < cfg0.N) (h1 : n % 49 = 0) (e : Fin 2048) (d : Fin 128) :
    (stAt (F := Ideal) m c n hn).2.2 (ix2 e d) = 0 + term aX (Rp aC (n / 49 * 2048 + e.val)) (n % 49) d := by
  by_cases h0 : n % 19159 = 0
  · rw [show stAt (F := Ideal) m c n hn = _ from stAt_first m c ⟨n, hn⟩ h0]
    refine (rowC_at m c ⟨n, hn⟩ _ e d).trans ?_
    rw [pay5_apply]
  · rw [show stAt (F := Ideal) m c n hn = _ from stAt_reset m c ⟨n, hn⟩ h0 h1]
    refine (rowC_at m c ⟨n, hn⟩ _ e d).trans ?_
    rw [pay5_apply]

theorem accC_step (n : ℕ) (hn : n < cfg0.N) (h1 : n % 49 ≠ 0) (e : Fin 2048) (d : Fin 128) :
    (stAt (F := Ideal) m c n hn).2.2 (ix2 e d)
      = (stAt (F := Ideal) m c (n - 1) (Nat.lt_of_le_of_lt (Nat.sub_le _ _) hn)).2.2 (ix2 e d)
        + term aX (Rp aC (n / 49 * 2048 + e.val)) (n % 49) d := by
  by_cases h2 : n % 49 = 48
  · rw [show stAt (F := Ideal) m c n hn = _ from stAt_last m c ⟨n, hn⟩ h2]
    exact rowC_at m c ⟨n, hn⟩ _ e d
  · rw [show stAt (F := Ideal) m c n hn = _ from stAt_mid m c ⟨n, hn⟩ h1 h2]
    exact rowC_at m c ⟨n, hn⟩ _ e d

/-- The chunks' parts of one edge block add up to the gathered row. -/
theorem sum_term_block (X : FVec Ideal SX .f32) (w : ℕ → BitVec 32) (q : ℕ) (e : Fin 2048) (d : Fin 128) :
    ∑ i : Fin 49, term X (w ((q * 49 + i.val) / 49 * 2048 + e.val)) ((q * 49 + i.val) % 49) d
      = gat X (w (q * 2048 + e.val)) d := by
  rw [gat_eq_sum_term]
  refine Finset.sum_congr rfl fun i _ => ?_
  have h1 : (q * 49 + i.val) / 49 = q := by have := i.isLt; omega
  have h2 : (q * 49 + i.val) % 49 = i.val := by have := i.isLt; omega
  rw [h1, h2]

/-- AFTER AN EDGE BLOCK'S LAST NODE CHUNK the row accumulator holds, at `(e, d)`, feature `d` of the row that
    edge `e`'s row endpoint names. -/
theorem accR_last (q : Fin 782) (h : q.val * 49 + 48 < cfg0.N) (e : Fin 2048) (d : Fin 128) :
    (stAt (F := Ideal) m c (q.val * 49 + 48) h).2.1 (ix2 e d) = gat aX (Rp aR (q.val * 2048 + e.val)) d := by
  have key := Cert.LibAcc.acc_last_zero 49 782
    (fun n hn => (stAt (F := Ideal) m c n (lt_of_lt_of_eq hn N_eq)).2.1 (ix2 e d))
    (fun n _ => term aX (Rp aR (n / 49 * 2048 + e.val)) (n % 49) d) 0 rfl
    (fun n hn h1 => accR_reset m c n _ h1 e d)
    (fun n hn h1 => accR_step m c n _ h1 e d) (by norm_num) q
  exact key.trans (sum_term_block aX (Rp aR) q.val e d)

/-- The same for the column accumulator and the column endpoint. -/
theorem accC_last (q : Fin 782) (h : q.val * 49 + 48 < cfg0.N) (e : Fin 2048) (d : Fin 128) :
    (stAt (F := Ideal) m c (q.val * 49 + 48) h).2.2 (ix2 e d) = gat aX (Rp aC (q.val * 2048 + e.val)) d := by
  have key := Cert.LibAcc.acc_last_zero 49 782
    (fun n hn => (stAt (F := Ideal) m c n (lt_of_lt_of_eq hn N_eq)).2.2 (ix2 e d))
    (fun n _ => term aX (Rp aC (n / 49 * 2048 + e.val)) (n % 49) d) 0 rfl
    (fun n hn h1 => accC_reset m c n _ h1 e d)
    (fun n hn h1 => accC_step m c n _ h1 e d) (by norm_num) q
  exact key.trans (sum_term_block aX (Rp aC) q.val e d)

/-- At a core's first point the output cell is cleared. -/
theorem cell_first (n : ℕ) (hn : n < cfg0.N) (h0 : n % 19159 = 0) (j : S1x1x1.Idx) :
    (stAt (F := Ideal) m c n hn).1 j = 0 := by
  rw [show stAt (F := Ideal) m c n hn = _ from stAt_first m c ⟨n, hn⟩ h0]
  exact pay3_apply j

/-- Where the output cell is left alone it holds what the point before left. -/
theorem cell_idle (n : ℕ) (hn : n < cfg0.N) (h0 : ¬ n % 19159 = 0) (h2 : ¬ n % 49 = 48) (j : S1x1x1.Idx) :
    (stAt (F := Ideal) m c n hn).1 j
      = (stAt (F := Ideal) m c (n - 1) (Nat.lt_of_le_of_lt (Nat.sub_le _ _) hn)).1 j :=
  congrFun (stAt_idle_fst m c ⟨n, hn⟩ h0 h2) j

/-- At an edge block's last node chunk the output cell takes the block's sum. -/
theorem cell_sum (n : ℕ) (hn : n < cfg0.N) (h2 : n % 49 = 48) (j : S1x1x1.Idx) :
    (stAt (F := Ideal) m c n hn).1 j
      = (stAt (F := Ideal) m c (n - 1) (Nat.lt_of_le_of_lt (Nat.sub_le _ _) hn)).1 j
        + blockSum aX aR aC aV (n / 49) := by
  have hN : n < 38318 := lt_of_lt_of_eq hn (show cfg0.N = 38318 from N_0)
  have hq : n / 49 < 782 := by omega
  have hnq : n = n / 49 * 49 + 48 := by omega
  have hlt : n / 49 * 49 + 48 < cfg0.N := lt_of_eq_of_lt hnq.symm hn
  have hR : ∀ (e : Fin 2048) (d : Fin 128),
      (stAt (F := Ideal) m c n hn).2.1 (ix2 e d) = gat aX (Rp aR (n / 49 * 2048 + e.val)) d := fun e d => by
    rw [stAt_congr m c hnq hn hlt]
    exact accR_last m c ⟨n / 49, hq⟩ hlt e d
  have hC : ∀ (e : Fin 2048) (d : Fin 128),
      (stAt (F := Ideal) m c n hn).2.2 (ix2 e d) = gat aX (Rp aC (n / 49 * 2048 + e.val)) d := fun e d => by
    rw [stAt_congr m c hnq hn hlt]
    exact accC_last m c ⟨n / 49, hq⟩ hlt e d
  have key : (stAt (F := Ideal) m c n hn).1
      = k0_pay2 (vblk m c ⟨n, hn⟩) (stAt (F := Ideal) m c n hn).2.1 (stAt (F := Ideal) m c n hn).2.2
          (stAt (F := Ideal) m c (n - 1) (Nat.lt_of_le_of_lt (Nat.sub_le _ _) hn)).1 := by
    rw [show stAt (F := Ideal) m c n hn = _ from stAt_last m c ⟨n, hn⟩ h2]
  refine (congrFun key j).trans ?_
  refine (pay2_apply _ _ _ _ j).trans ?_
  refine congrArg (_ + ·) ?_
  unfold blockSum
  refine Finset.sum_congr rfl fun e _ => ?_
  rw [vblk_apply]
  refine congrArg (· * _) (Finset.sum_congr rfl fun d _ => ?_)
  rw [hR, hC]

/-- Within a core, after its point `k` the output cell holds the sums of the edge blocks that have ended. -/
theorem cell_prefix (c' : Fin 2) (j : S1x1x1.Idx) (k : ℕ) : ∀ (_ : k < 19159) (h : c'.val * 19159 + k < cfg0.N),
    (stAt (F := Ideal) m c (c'.val * 19159 + k) h).1 j
      = ∑ i ∈ Finset.range ((k + 1) / 49), blockSum aX aR aC aV (c'.val * 391 + i) := by
  induction k with
  | zero =>
    intro _ h
    rw [show (0 + 1) / 49 = 0 from rfl, Finset.range_zero, Finset.sum_empty]
    exact cell_first m c _ h (by omega) j
  | succ k ih =>
    intro hk h
    have hlt : c'.val * 19159 + k < cfg0.N := by omega
    have ih' := ih (by omega) hlt
    have hprev : stAt (F := Ideal) m c (c'.val * 19159 + (k + 1) - 1) (Nat.lt_of_le_of_lt (Nat.sub_le _ _) h)
        = stAt (F := Ideal) m c (c'.val * 19159 + k) hlt := stAt_congr m c (by omega) _ _
    by_cases h2 : (c'.val * 19159 + (k + 1)) % 49 = 48
    · rw [cell_sum m c _ h h2 j, hprev, ih']
      have hd : (k + 1 + 1) / 49 = (k + 1) / 49 + 1 := by omega
      have hb : (c'.val * 19159 + (k + 1)) / 49 = c'.val * 391 + (k + 1) / 49 := by omega
      rw [hd, Finset.sum_range_succ, hb]
    · rw [cell_idle m c _ h (by omega) h2 j, hprev, ih']
      have hd : (k + 1 + 1) / 49 = (k + 1) / 49 := by omega
      rw [hd]

end Points

/-- AFTER A CORE'S LAST POINT the output cell holds the sum of the core's edge blocks' sums. -/
theorem cell_last (c : Dev nD) (c' : Fin 2) (h : c'.val * 19159 + 19158 < cfg0.N) (j : S1x1x1.Idx) :
    (stAt (F := Ideal) m c (c'.val * 19159 + 19158) h).1 j
      = ∑ i : Fin 391, blockSum (m ((c : Thread nD τ).loc main_arg0)) (m ((c : Thread nD τ).loc main_arg1))
          (m ((c : Thread nD τ).loc main_arg2)) (m ((c : Thread nD τ).loc main_arg3)) (c'.val * 391 + i.val) := by
  rw [cell_prefix m c c' j 19158 (by norm_num) h, show (19158 + 1) / 49 = 391 from rfl, Finset.sum_range]

end Cert.KernelIdeal.Accum

end
-- ==== Proof.KV.Final.lean ====
/-
  The kernel's program computes `kerVal` of its arguments, divided by the number of edges.

  The run of the whole program leaves the output array at the two cores' final cells, each the sum of its core's
  391 edge blocks' sums; the host adds the two cells to zero and divides; and the 782 blocks' sums add up to the
  sum over the edges.
-/
import proofs.«419940_j22909355557427_1_alg».proof.Proof.KI.Frame
import proofs.«419940_j22909355557427_1_alg».proof.Proof.KV.Out
import proofs.«419940_j22909355557427_1_alg».proof.Proof.KV.Accum
import proofs.«419940_j22909355557427_1_alg».proof.Proof.KV.Sum
import Idealize.ShloMosaic.PureOps.Ideal.Laws

set_option maxRecDepth 16384

noncomputable section

open scoped BigOperators

namespace Cert.KernelIdeal.KerValue

open Idealize.ShloMosaic Idealize.ShloMosaic.TcCoe Idealize.ShloMosaic.ValueIdx Idealize.SL.Sem
open Cert.KernelIdeal Cert.KernelIdeal.Gen Cert.KernelIdeal.GenP Cert.KernelIdeal.Body Cert.KerSum

variable (m : (ℓ : Loc nD τ sig) → Buf (Elt Ideal) ℓ) (ρ : Dev nD → PrngReg)

/-- The output array's index set is its first coordinate's range: the other two axes have one index each. -/
def idxEquiv211 : S2x1x1.Idx ≃ Fin 2 where
  toFun i := i 0
  invFun a := ix3 a (0 : Fin 1) (0 : Fin 1)
  left_inv i := by
    have h1 : (i 1 : Fin 1) = (0 : Fin 1) := @Subsingleton.elim (Fin 1) _ (i 1) 0
    have h2 : (i 2 : Fin 1) = (0 : Fin 1) := @Subsingleton.elim (Fin 1) _ (i 2) 0
    have h := eq_ix3 (n0 := 2) (n1 := 1) (n2 := 1) i
    rw [h1, h2] at h
    exact h.symm
  right_inv _ := rfl

theorem sum_idx211 {M : Type*} [AddCommMonoid M] (f : S2x1x1.Idx → M) :
    ∑ i, f i = ∑ a : Fin 2, f (ix3 a (0 : Fin 1) (0 : Fin 1)) := by
  rw [← Equiv.sum_comp idxEquiv211.symm f]
  rfl

/-- The sum of the output array's cells, from zero, is the kernel's total. -/
theorem numer_eq (c : Dev nD) :
    Host.reduceAdd (F := Ideal) (Out.outArr m c) (constant S_ .f32 0x00000000#32) reducesTo_S2x1x1_S_d0_1_2 h_S_
      = fun _ => Cert.Spec.kerVal (m ((c : Thread nD τ).loc main_arg0)) (m ((c : Thread nD τ).loc main_arg1))
          (m ((c : Thread nD τ).loc main_arg2)) (m ((c : Thread nD τ).loc main_arg3)) := by
  funext i
  simp only [Host.reduceAdd, Ideal.hostReduceAdd_def]
  rw [Ideal.hostReduceAdd_total reducesTo_S2x1x1_S_d0_1_2 (fun b => b.elim0) _ _ i, sum_idx211, ← total_eq]
  have hz : (constant (F := Ideal) S_ .f32 0x00000000#32) (Shape.Idx.first h_S_) = 0 := Ideal.ofBits_zero_f32
  rw [hz, zero_add]
  refine Finset.sum_congr rfl fun c' _ => ?_
  have hlt : c'.val * 19159 + 19158 < cfg0.N := by
    have : cfg0.N = 38318 := N_0
    have := c'.isLt
    omega
  rw [Out.outArr_apply m c c' hlt, Accum.cell_last m c c' hlt]

/-- Every weakly fair execution of the kernel's program terminates with its result at `kerVal` of the arguments
    divided by the number of edges, the arguments unchanged. -/
theorem run : θ_run (defs (F := Ideal)) (onTc (τ := τ) (main (F := Ideal))) ⟨m, fun _ => 0, ρ⟩ fun r => ∀ c : Dev nD,
      r.2.mem ((c.tc : Thread nD τ).loc main_v10)
          = Host.divf (F := Ideal) (fun _ => Cert.Spec.kerVal (m ((c.tc : Thread nD τ).loc main_arg0)) (m ((c.tc : Thread nD τ).loc main_arg1))
              (m ((c.tc : Thread nD τ).loc main_arg2)) (m ((c.tc : Thread nD τ).loc main_arg3))) (constant S_ .f32 0x49C35000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun r h c =>
    ⟨(((h c).2 main_v10 (Pipeline.mem_restRefs_of main_v10 (by decide) (by decide))).trans (Out.result_eq m c)).trans
        (congrArg (fun z => Host.divf (F := Ideal) z (constant S_ .f32 0x49C35000#32)) (numer_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main (F := Ideal) m ρ)

end Cert.KernelIdeal.KerValue

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.RefValue.lean ====
/-
  The reference's result as a function of the argument arrays.

  The reference gathers, for each edge, the row of `x` its column endpoint names (a negative endpoint raised by the
  number of nodes, the result clamped into range), scales it by the edge's weight, adds the scaled rows into the rows
  their row endpoints name (an endpoint that is no row number adds nowhere), multiplies the result entry by entry
  with `x`, sums all entries and divides by the number of edges. Read at the extended reals that sum is
  `Cert.Spec.refVal`.
-/
import proofs.«419940_j22909355557427_1_alg».proof.Proof.Gen.ReferenceIdeal.Run
import proofs.«419940_j22909355557427_1_alg».proof.Proof.Gen.ReferenceIdeal.Read
import proofs.«419940_j22909355557427_1_alg».proof.Proof.Spec
import proofs.«419940_j22909355557427_1_alg».proof.Proof.LibIndex

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Value

open Cert.ReferenceIdeal.Read Cert.LibIndex

/-- The word a negative endpoint is replaced by: the signed comparison with zero selects between the endpoint raised
    by the number of nodes and the endpoint itself. -/
theorem select_slt_zero (c : BitVec 32) :
    Scalar.select (IntOp.cmpi .slt c 0#32) (IntOp.addi c 100000#32) c
      = if c.slt 0#32 then c + 100000#32 else c := by
  cases h : c.slt 0#32 <;> simp [Scalar.select, IntOp.cmpi, IntOp.addi, h]

/-- The start index the gather reads for edge `k`. -/
theorem startIdx_apply (x2 : (⟨S1600000, .i32⟩ : BufTy).Contents (Elt Ideal)) (k : Fin 1600000) :
    val_main_v6 (F := Ideal) x2 (ix2 k (0 : Fin 1))
      = if (x2 (ix1 k)).slt 0#32 then x2 (ix1 k) + 100000#32 else x2 (ix1 k) := by
  have hi : idx_main_v6 (ix2 k (0 : Fin 1)) = ix1 k := by
    funext a; match a with | ⟨0, _⟩ => rfl
  rw [val_main_v6_apply, hi, val_main_v5_apply, val_main_v2_apply, val_main_v4_apply, val_main_v1_apply,
    val_main_v3_apply, val_main_c_apply, val_main_c_0_apply]
  exact select_slt_zero _

/-- The gathered matrix at `(k, d)`: feature `d` of the row of `x` that edge `k`'s column endpoint names. -/
theorem gathered_apply (x0 : (⟨S100000x128, .f32⟩ : BufTy).Contents (Elt Ideal))
    (x2 : (⟨S1600000, .i32⟩ : BufTy).Contents (Elt Ideal)) (k : Fin 1600000) (d : Fin 128) :
    val_main_v7 (F := Ideal) x0 x2 (ix2 k d) = x0 (ix2 (Cert.Spec.colRow (x2 (ix1 k))) d) := by
  unfold val_main_v7
  rw [gather_row_apply_of (by decide) _ rfl rfl rfl rfl rfl rfl rfl]
  congr 2
  refine Fin.ext ?_
  show min (val_main_v6 (F := Ideal) x2 (ix2 k (0 : Fin 1))).toInt.toNat (100000 - 1) = _
  rw [startIdx_apply]
  rfl

/-- The weighted gathered matrix at `(k, d)`. -/
theorem weighted_apply (x0 : (⟨S100000x128, .f32⟩ : BufTy).Contents (Elt Ideal))
    (x2 : (⟨S1600000, .i32⟩ : BufTy).Contents (Elt Ideal)) (x3 : (⟨S1600000, .f32⟩ : BufTy).Contents (Elt Ideal))
    (k : Fin 1600000) (d : Fin 128) :
    val_main_v9 (F := Ideal) x0 x2 x3 (ix2 k d) = x3 (ix1 k) * x0 (ix2 (Cert.Spec.colRow (x2 (ix1 k))) d) := by
  have hi : idx_main_v0 (idx_main_v8 (ix2 k d)) = ix1 k := by
    funext a; match a with | ⟨0, _⟩ => rfl
  rw [val_main_v9_apply, val_main_v8_apply, val_main_v0_apply, hi, gathered_apply]
  rfl

/-- The scattered matrix at `(v, d)`: the sum of the weighted rows of the edges whose row endpoint is `v`. -/
theorem scattered_apply (x0 : (⟨S100000x128, .f32⟩ : BufTy).Contents (Elt Ideal))
    (x1 x2 : (⟨S1600000, .i32⟩ : BufTy).Contents (Elt Ideal)) (x3 : (⟨S1600000, .f32⟩ : BufTy).Contents (Elt Ideal))
    (v : Fin 100000) (d : Fin 128) :
    val_main_v12 (F := Ideal) x0 x1 x2 x3 (ix2 v d)
      = ∑ k : Fin 1600000, if (x1 (ix1 k)).toInt = (v.val : Int)
          then x3 (ix1 k) * x0 (ix2 (Cert.Spec.colRow (x2 (ix1 k))) d) else 0 := by
  unfold val_main_v12
  rw [scatterAdd_row_apply_of _ rfl rfl rfl rfl]
  have h0 : val_main_v10 (F := Ideal) (ix2 v d) = 0 := by
    rw [val_main_v10_apply, val_main_cst_apply]
    exact Ideal.ofBits_zero_f32
  rw [h0, zero_add]
  refine Finset.sum_congr rfl fun k _ => ?_
  have hi : idx_main_v11 (ix2 k (0 : Fin 1)) = ix1 k := by
    funext a; match a with | ⟨0, _⟩ => rfl
  rw [val_main_v11_apply, hi, weighted_apply]

/-- THE REFERENCE'S SUM IS `refVal`. -/
theorem numerator_eq (x0 : (⟨S100000x128, .f32⟩ : BufTy).Contents (Elt Ideal))
    (x1 x2 : (⟨S1600000, .i32⟩ : BufTy).Contents (Elt Ideal)) (x3 : (⟨S1600000, .f32⟩ : BufTy).Contents (Elt Ideal)) :
    val_main_v14 (F := Ideal) x0 x1 x2 x3 = fun _ => Cert.Spec.refVal x0 x1 x2 x3 := by
  funext i
  rw [val_main_v14_apply, val_main_cst_1_apply]
  have h0 : (FloatOps.ofBits (F := Ideal) .f32 0x00000000#32) = (0 : EReal) := Ideal.ofBits_zero_f32
  rw [h0, zero_add, sum_idx2]
  unfold Cert.Spec.refVal
  refine Finset.sum_congr rfl fun v _ => Finset.sum_congr rfl fun d _ => ?_
  rw [val_main_v13_apply, scattered_apply]
  rfl

/-- Every weakly fair execution of the reference terminates with its result at `refVal` of the arguments divided
    by the number of edges, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15)
          = Host.divf (F := Ideal) (fun _ => Cert.Spec.refVal (m ((c.tc : Thread nD τ).loc main_arg0)) (m ((c.tc : Thread nD τ).loc main_arg1))
              (m ((c.tc : Thread nD τ).loc main_arg2)) (m ((c.tc : Thread nD τ).loc main_arg3))) (constant S_ .f32 0x49C35000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c => by
      obtain ⟨h15, h0, h1, h2, h3⟩ := h c
      refine ⟨?_, h0, h1, h2, h3⟩
      rw [h15, val_main_v15_eq, val_main_v15, numerator_eq]
      rfl)
    (Cert.ReferenceIdeal.Value.run (F := Ideal) m ρ)

end Cert.ReferenceIdeal.RefValue

end
-- ==== Proof.PreFacts.lean ====
/-
  What the precondition says of the argument arrays: every entry of `x` and of `vals` is a real number, and
  every column endpoint, read as a signed integer, is a node number.
-/
import proofs.«419940_j22909355557427_1_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Idealize.ShloMosaic.ValueIdx
open Cert.Pre_finite_inputs

/-- The rank-0 shape has one index. -/
instance : Subsingleton S_.Idx := ⟨fun a b => funext fun d => d.elim0⟩

/-- An extended real whose absolute value lies strictly below +∞ is a real number: at ⊤ and at ⊥ the absolute value
    is ⊤, which is not below ⊤. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have hT : Ideal.ofBits .f32 0x7F800000#32 = ⊤ := by simp [Ideal.ofBits, Ideal.ieee]
  change Ideal.cmp .olt (max x (-x)) (Ideal.ofBits .f32 0x7F800000#32) = 1#1 at h
  rw [hT] at h
  induction x using EReal.rec with
  | bot => simp [Ideal.cmp] at h
  | coe r => exact ⟨r, rfl⟩
  | top => simp [Ideal.cmp] at h

/-- A 32-bit word that compares at least 0 and below 100000, signed, has its signed value in [0, 100000). -/
theorem range_of_cmp (w : BitVec 32) (h0 : IntOp.cmpi .sge w 0#32 = 1#1) (h1 : IntOp.cmpi .slt w 100000#32 = 1#1) :
    0 ≤ w.toInt ∧ w.toInt < 100000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (100000#32 : BitVec 32).toInt = 100000 := by decide
  rw [e0] at h0; rw [e1] at h1
  exact ⟨h0, h1⟩

/-- THE PRECONDITION DECODED. -/
theorem of_pre [Cert.Pre_finite_inputs.Facts] (X : FVec Ideal S100000x128 .f32) (R C : IVec S1600000 32) (Vv : FVec Ideal S1600000 .f32)
    (h : Cert.Pre_finite_inputs.fn (F := Ideal) X R C Vv = fun _ => 1#1) :
    (∀ i, ∃ x : ℝ, X i = (x : EReal)) ∧ (∀ i, ∃ v : ℝ, Vv i = (v : EReal))
      ∧ (∀ k : Fin 1600000, 0 ≤ (C (ix1 k)).toInt ∧ (C (ix1 k)).toInt < 100000) := by
  -- the predicate's one entry: a conjunction of three "for all entries" clauses
  have h0 := congrFun h ix0
  dsimp only [fn] at h0
  obtain ⟨h12, h3⟩ := IntOp.andi_eq_one.1 h0
  obtain ⟨h1, h2⟩ := IntOp.andi_eq_one.1 h12
  refine ⟨fun i => ?_, fun i => ?_, fun k => ?_⟩
  · exact real_of_abs_lt (X i) (Host.reduce_andi_all _ _ _ _ _ h1 i)
  · exact real_of_abs_lt (Vv i) (Host.reduce_andi_all _ _ _ _ _ h2 i)
  · obtain ⟨a, b⟩ := IntOp.andi_eq_one.1 (Host.reduce_andi_all _ _ _ _ _ h3 (ix1 k))
    exact range_of_cmp _ a b

end Cert.PreFacts

end
-- ==== Proof.lean ====
/-
  The certificate: the kernel's program and the reference compute the same number on finite data whose column
  endpoints are node numbers.

  The kernel's program computes, edge by edge, the weight times the inner product of the two endpoints' rows of
  node features, each row selected by comparing the endpoint with every node number, and sums over the edges
  (`Cert.Spec.kerVal`); the reference scatters the weighted rows into a matrix and contracts it with the features
  (`Cert.Spec.refVal`); both divide by the number of edges. The two sums are one finite double sum of reals taken
  in two orders (`Cert.Spec.kerVal_eq_refVal`); finiteness is what lets multiplication distribute over the sums.
  The three frames are each program's run with its result dropped.
-/
import proofs.«419940_j22909355557427_1_alg».proof.Defs
import proofs.«419940_j22909355557427_1_alg».proof.Proof.Gen.Kernel
import proofs.«419940_j22909355557427_1_alg».proof.Proof.Gen.KernelIdeal
import proofs.«419940_j22909355557427_1_alg».proof.Proof.Gen.ReferenceIdeal
import proofs.«419940_j22909355557427_1_alg».proof.Proof.Gen.Pre_finite_inputs
import proofs.«419940_j22909355557427_1_alg».proof.Proof.KB.Frame
import proofs.«419940_j22909355557427_1_alg».proof.Proof.KI.Frame
import proofs.«419940_j22909355557427_1_alg».proof.Proof.KV.Final
import proofs.«419940_j22909355557427_1_alg».proof.Proof.RefValue
import proofs.«419940_j22909355557427_1_alg».proof.Proof.PreFacts
import proofs.«419940_j22909355557427_1_alg».proof.Proof.Spec
import Idealize.ShloMosaic.Adequacy
import Idealize.ShloMosaic.Init

noncomputable section

namespace Cert.Proof

open Idealize.ShloMosaic Idealize.ShloMosaic.TcCoe Idealize.SL.Sem

/-- The program as printed runs and leaves its arguments as they were. -/
theorem frame_k : Cert.frame_Kernel := fun m ρ _ => Cert.Kernel.Body.frame m ρ

/-- So does its idealization. -/
theorem frame_ki : Cert.frame_KernelIdeal := fun m ρ _ => Cert.KernelIdeal.Body.frame m ρ

/-- So does the reference: its run with the result dropped. -/
theorem frame_ri : Cert.frame_ReferenceIdeal := fun m ρ _ =>
  (θ_run Cert.ReferenceIdeal.defs _ _).mono (fun _ h c => (h c).2) (Cert.ReferenceIdeal.RefValue.run m ρ)

/-- Both programs end with their result at the same extended real: the kernel's total, which on the
    precondition's data is the reference's, divided by the number of edges. -/
theorem algebraic : Cert.algebraic_KernelIdeal_ReferenceIdeal := by
  intro m ρ m' ρ' hpre hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  obtain ⟨hX, hV, hC⟩ := Cert.PreFacts.of_pre _ _ _ _ (hpre c)
  rw [(hagree c).1, (hagree c).2.1, (hagree c).2.2.1, (hagree c).2.2.2]
  exact congrArg (fun z : EReal => Host.divf (F := Ideal) (fun _ => z) (constant Cert.KernelIdeal.S_ .f32 0x49C35000#32))
    (Cert.Spec.kerVal_eq_refVal _ _ _ _ hX hV hC).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
